-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16x64 : Shape := ⟨3, ![8192, 16, 64]⟩
abbrev S478 : Shape := ⟨1, ![478]⟩
abbrev S_ : Shape := ⟨0, ![]⟩

class Facts : Prop where
  bcast_S_S8192x16x64 : S_.BroadcastsInDim S8192x16x64 (![] : Fin 0 → Fin S8192x16x64.rank)
  reducesTo_S8192x16x64_S_d0_1_2 : S8192x16x64.ReducesTo [0, 1, 2] S_
  h_S_ : 0 < S_.numel
  bcast_S_S478 : S_.BroadcastsInDim S478 (![] : Fin 0 → Fin S478.rank)
  reducesTo_S478_S_d0 : S478.ReducesTo [0] S_

variable [Facts]

def fn_part2 {F : FTy → Type} [FloatOps F] (main_arg5 : IVec S478 32) (main_v29 : IVec S_ 1) (main_v31 : IVec S478 1) (main_c_13 : IVec S_ 1) : IVec S_ 1 :=
  let main_v32 : IVec S_ 1 := (fun x v => Host.reduce IntOp.andi x v reducesTo_S478_S_d0 h_S_) main_v31 main_c_13
  let main_v33 : IVec S_ 1 := andi main_v29 main_v32
  let main_c_14 : IVec S_ 32 := constantI S_ 32 16#32
  let main_v34 : IVec S478 32 := broadcastInDim S478 ![] bcast_S_S478 main_c_14
  let main_v35 : IVec S478 1 := cmpi .slt main_arg5 main_v34
  let main_c_15 : IVec S_ 1 := constantI S_ 1 1#1
  let main_v36 : IVec S_ 1 := (fun x v => Host.reduce IntOp.andi x v reducesTo_S478_S_d0 h_S_) main_v35 main_c_15
  let main_v37 : IVec S_ 1 := andi main_v33 main_v36
  main_v37

def fn_part1 {F : FTy → Type} [FloatOps F] (main_arg3 : IVec S478 32) (main_arg4 : IVec S478 32) (main_arg5 : IVec S478 32) (main_v13 : IVec S_ 1) (main_v15 : IVec S478 1) (main_c_5 : IVec S_ 1) : IVec S_ 1 :=
  let main_v16 : IVec S_ 1 := (fun x v => Host.reduce IntOp.andi x v reducesTo_S478_S_d0 h_S_) main_v15 main_c_5
  let main_v17 : IVec S_ 1 := andi main_v13 main_v16
  let main_c_6 : IVec S_ 32 := constantI S_ 32 16#32
  let main_v18 : IVec S478 32 := broadcastInDim S478 ![] bcast_S_S478 main_c_6
  let main_v19 : IVec S478 1 := cmpi .slt main_arg3 main_v18
  let main_c_7 : IVec S_ 1 := constantI S_ 1 1#1
  let main_v20 : IVec S_ 1 := (fun x v => Host.reduce IntOp.andi x v reducesTo_S478_S_d0 h_S_) main_v19 main_c_7
  let main_v21 : IVec S_ 1 := andi main_v17 main_v20
  let main_c_8 : IVec S_ 32 := constantI S_ 32 0#32
  let main_v22 : IVec S478 32 := broadcastInDim S478 ![] bcast_S_S478 main_c_8
  let main_v23 : IVec S478 1 := cmpi .sge main_arg4 main_v22
  let main_c_9 : IVec S_ 1 := constantI S_ 1 1#1
  let main_v24 : IVec S_ 1 := (fun x v => Host.reduce IntOp.andi x v reducesTo_S478_S_d0 h_S_) main_v23 main_c_9
  let main_v25 : IVec S_ 1 := andi main_v21 main_v24
  let main_c_10 : IVec S_ 32 := constantI S_ 32 16#32
  let main_v26 : IVec S478 32 := broadcastInDim S478 ![] bcast_S_S478 main_c_10
  let main_v27 : IVec S478 1 := cmpi .slt main_arg4 main_v26
  let main_c_11 : IVec S_ 1 := constantI S_ 1 1#1
  let main_v28 : IVec S_ 1 := (fun x v => Host.reduce IntOp.andi x v reducesTo_S478_S_d0 h_S_) main_v27 main_c_11
  let main_v29 : IVec S_ 1 := andi main_v25 main_v28
  let main_c_12 : IVec S_ 32 := constantI S_ 32 0#32
  let main_v30 : IVec S478 32 := broadcastInDim S478 ![] bcast_S_S478 main_c_12
  let main_v31 : IVec S478 1 := cmpi .sge main_arg5 main_v30
  let main_c_13 : IVec S_ 1 := constantI S_ 1 1#1
  fn_part2 (F := F) main_arg5 main_v29 main_v31 main_c_13

def fn {F : FTy → Type} [FloatOps F] (main_arg0 : FVec F S8192x16x64 .f32) (main_arg1 : FVec F S8192x16x64 .f32) (main_arg2 : FVec F S478 .f32) (main_arg3 : IVec S478 32) (main_arg4 : IVec S478 32) (main_arg5 : IVec S478 32) : IVec S_ 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_c : IVec S_ 1 := constantI S_ 1 1#1
  let main_v3 : IVec S_ 1 := (fun x v => Host.reduce IntOp.andi x v reducesTo_S8192x16x64_S_d0_1_2 h_S_) main_v2 main_c
  let main_v4 : FVec F S8192x16x64 .f32 := Host.absf main_arg1
  let main_cst_0 : FVec F S_ .f32 := constant S_ .f32 0x7F800000#32
  let main_v5 : FVec F S8192x16x64 .f32 := broadcastInDim S8192x16x64 ![] bcast_S_S8192x16x64 main_cst_0
  let main_v6 : IVec S8192x16x64 1 := cmpf .olt main_v4 main_v5
  let main_c_1 : IVec S_ 1 := constantI S_ 1 1#1
  let main_v7 : IVec S_ 1 := (fun x v => Host.reduce IntOp.andi x v reducesTo_S8192x16x64_S_d0_1_2 h_S_) main_v6 main_c_1
  let main_v8 : IVec S_ 1 := andi main_v3 main_v7
  let main_v9 : FVec F S478 .f32 := Host.absf main_arg2
  let main_cst_2 : FVec F S_ .f32 := constant S_ .f32 0x7F800000#32
  let main_v10 : FVec F S478 .f32 := broadcastInDim S478 ![] bcast_S_S478 main_cst_2
  let main_v11 : IVec S478 1 := cmpf .olt main_v9 main_v10
  let main_c_3 : IVec S_ 1 := constantI S_ 1 1#1
  let main_v12 : IVec S_ 1 := (fun x v => Host.reduce IntOp.andi x v reducesTo_S478_S_d0 h_S_) main_v11 main_c_3
  let main_v13 : IVec S_ 1 := andi main_v8 main_v12
  let main_c_4 : IVec S_ 32 := constantI S_ 32 0#32
  let main_v14 : IVec S478 32 := broadcastInDim S478 ![] bcast_S_S478 main_c_4
  let main_v15 : IVec S478 1 := cmpi .sge main_arg3 main_v14
  let main_c_5 : IVec S_ 1 := constantI S_ 1 1#1
  fn_part1 (F := F) main_arg3 main_arg4 main_arg5 main_v13 main_v15 main_c_5
-- ==== Kernel.lean ====
abbrev S8192x16x64 : Shape := ⟨3, ![8192, 16, 64]⟩
abbrev S478 : Shape := ⟨1, ![478]⟩
abbrev S_ : Shape := ⟨0, ![]⟩
abbrev S4096 : Shape := ⟨1, ![4096]⟩
abbrev S478x1 : Shape := ⟨2, ![478, 1]⟩
abbrev S16x16x16 : Shape := ⟨3, ![16, 16, 16]⟩
abbrev S64x16x64 : Shape := ⟨3, ![64, 16, 64]⟩
abbrev S64x64x16 : Shape := ⟨3, ![64, 64, 16]⟩
abbrev S4096x16 : Shape := ⟨2, ![4096, 16]⟩
abbrev S64x1x64 : Shape := ⟨3, ![64, 1, 64]⟩
abbrev S64x64 : Shape := ⟨2, ![64, 64]⟩
abbrev S1x16x16 : Shape := ⟨3, ![1, 16, 16]⟩
abbrev S16x16 : Shape := ⟨2, ![16, 16]⟩
abbrev S64x64x1 : Shape := ⟨3, ![64, 64, 1]⟩

abbrev nBuf : Space → Nat
  | .hbm => 28
  | .vmem => 9
  | .smem => 0
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S478, .f32⟩
  | .hbm, ⟨3, _⟩ => ⟨S478, .i32⟩
  | .hbm, ⟨4, _⟩ => ⟨S478, .i32⟩
  | .hbm, ⟨5, _⟩ => ⟨S478, .i32⟩
  | .hbm, ⟨6, _⟩ => ⟨S_, .i32⟩
  | .hbm, ⟨7, _⟩ => ⟨S478, .i32⟩
  | .hbm, ⟨8, _⟩ => ⟨S478, .i32⟩
  | .hbm, ⟨9, _⟩ => ⟨S_, .i32⟩
  | .hbm, ⟨10, _⟩ => ⟨S478, .i32⟩
  | .hbm, ⟨11, _⟩ => ⟨S478, .i32⟩
  | .hbm, ⟨12, _⟩ => ⟨S478, .i32⟩
  | .hbm, ⟨13, _⟩ => ⟨S478, .i32⟩
  | .hbm, ⟨14, _⟩ => ⟨S_, .f32⟩
  | .hbm, ⟨15, _⟩ => ⟨S4096, .f32⟩
  | .hbm, ⟨16, _⟩ => ⟨S_, .i32⟩
  | .hbm, ⟨17, _⟩ => ⟨S478, .i32⟩
  | .hbm, ⟨18, _⟩ => ⟨S478, .i1⟩
  | .hbm, ⟨19, _⟩ => ⟨S_, .i32⟩
  | .hbm, ⟨20, _⟩ => ⟨S478, .i32⟩
  | .hbm, ⟨21, _⟩ => ⟨S478, .i32⟩
  | .hbm, ⟨22, _⟩ => ⟨S478, .i32⟩
  | .hbm, ⟨23, _⟩ => ⟨S478x1, .i32⟩
  | .hbm, ⟨24, _⟩ => ⟨S4096, .f32⟩
  | .hbm, ⟨25, _⟩ => ⟨S16x16x16, .f32⟩
  | .hbm, ⟨26, _⟩ => ⟨S16x16x16, .bf16⟩
  | .hbm, ⟨27, _⟩ => ⟨S8192x16x64, .f32⟩
  | .local _ .vmem, ⟨0, _⟩ => ⟨S64x16x64, .f32⟩
  | .local _ .vmem, ⟨1, _⟩ => ⟨S64x16x64, .f32⟩
  | .local _ .vmem, ⟨2, _⟩ => ⟨S64x16x64, .f32⟩
  | .local _ .vmem, ⟨3, _⟩ => ⟨S64x16x64, .f32⟩
  | .local _ .vmem, ⟨4, _⟩ => ⟨S16x16x16, .bf16⟩
  | .local _ .vmem, ⟨5, _⟩ => ⟨S64x16x64, .f32⟩
  | .local _ .vmem, ⟨6, _⟩ => ⟨S64x16x64, .f32⟩
  | .local _ .vmem, ⟨7, _⟩ => ⟨S64x64x16, .f32⟩
  | .local _ .vmem, ⟨8, _⟩ => ⟨S64x64x16, .f32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x16x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S478 : S_.BroadcastsInDim S478 (![] : Fin 0 → Fin S478.rank)
  bcast_S_S4096 : S_.BroadcastsInDim S4096 (![] : Fin 0 → Fin S4096.rank)
  bcast_S478_S478x1_0 : S478.BroadcastsInDim S478x1 (![0] : Fin 1 → Fin S478x1.rank)
  shapeCasts_S4096_S16x16x16 : S4096.ShapeCasts S16x16x16
  bitsLt_bf16_f32 : FTy.bits .bf16 < FTy.bits .f32
  inb_S64x16x64_S64x16x64_0_0_0 : ∀ a, (![0, 0, 0] : Fin 3 → Nat) a + S64x16x64.size a ≤ S64x16x64.size a
  h_S64x16x64 : 0 < S64x16x64.numel
  inb_S16x16x16_S16x16x16_0_0_0 : ∀ a, (![0, 0, 0] : Fin 3 → Nat) a + S16x16x16.size a ≤ S16x16x16.size a
  h_S16x16x16 : 0 < S16x16x16.numel
  shapeCasts_S16x16x16_S16x16x16 : S16x16x16.ShapeCasts S16x16x16
  transposes_S64x16x64_p0_2_1_S64x64x16 : S64x16x64.Transposes [0, 2, 1] S64x64x16
  shapeCasts_S64x64x16_S4096x16 : S64x64x16.ShapeCasts S4096x16
  inb_S64x64x16_S64x64x16_0_0_0 : ∀ a, (![0, 0, 0] : Fin 3 → Nat) a + S64x64x16.size a ≤ S64x64x16.size a
  h_S64x64x16 : 0 < S64x64x16.numel
  shapeCasts_S64x64x16_S64x64x16 : S64x64x16.ShapeCasts S64x64x16
  slices_S64x16x64_o0_0_0_S64x1x64 : S64x16x64.Slices ![0, 0, 0] S64x1x64
  shapeCasts_S64x1x64_S64x64 : S64x1x64.ShapeCasts S64x64
  slices_S16x16x16_o0_0_0_S1x16x16 : S16x16x16.Slices ![0, 0, 0] S1x16x16
  shapeCasts_S1x16x16_S16x16 : S1x16x16.ShapeCasts S16x16
  shapeCasts_S4096x16_S64x64x16 : S4096x16.ShapeCasts S64x64x16
  shapeCasts_S64x64_S64x64x1 : S64x64.ShapeCasts S64x64x1
  broadcasts_S64x64x1_S64x64x16 : S64x64x1.Broadcasts S64x64x16
  slices_S64x16x64_o0_1_0_S64x1x64 : S64x16x64.Slices ![0, 1, 0] S64x1x64
  slices_S16x16x16_o1_0_0_S1x16x16 : S16x16x16.Slices ![1, 0, 0] S1x16x16
  slices_S64x16x64_o0_2_0_S64x1x64 : S64x16x64.Slices ![0, 2, 0] S64x1x64
  slices_S16x16x16_o2_0_0_S1x16x16 : S16x16x16.Slices ![2, 0, 0] S1x16x16
  slices_S64x16x64_o0_3_0_S64x1x64 : S64x16x64.Slices ![0, 3, 0] S64x1x64
  slices_S16x16x16_o3_0_0_S1x16x16 : S16x16x16.Slices ![3, 0, 0] S1x16x16
  slices_S64x16x64_o0_4_0_S64x1x64 : S64x16x64.Slices ![0, 4, 0] S64x1x64
  slices_S16x16x16_o4_0_0_S1x16x16 : S16x16x16.Slices ![4, 0, 0] S1x16x16
  slices_S64x16x64_o0_5_0_S64x1x64 : S64x16x64.Slices ![0, 5, 0] S64x1x64
  slices_S16x16x16_o5_0_0_S1x16x16 : S16x16x16.Slices ![5, 0, 0] S1x16x16
  slices_S64x16x64_o0_6_0_S64x1x64 : S64x16x64.Slices ![0, 6, 0] S64x1x64
  slices_S16x16x16_o6_0_0_S1x16x16 : S16x16x16.Slices ![6, 0, 0] S1x16x16
  slices_S64x16x64_o0_7_0_S64x1x64 : S64x16x64.Slices ![0, 7, 0] S64x1x64
  slices_S16x16x16_o7_0_0_S1x16x16 : S16x16x16.Slices ![7, 0, 0] S1x16x16
  slices_S64x16x64_o0_8_0_S64x1x64 : S64x16x64.Slices ![0, 8, 0] S64x1x64
  slices_S16x16x16_o8_0_0_S1x16x16 : S16x16x16.Slices ![8, 0, 0] S1x16x16
  slices_S64x16x64_o0_9_0_S64x1x64 : S64x16x64.Slices ![0, 9, 0] S64x1x64
  slices_S16x16x16_o9_0_0_S1x16x16 : S16x16x16.Slices ![9, 0, 0] S1x16x16
  slices_S64x16x64_o0_10_0_S64x1x64 : S64x16x64.Slices ![0, 10, 0] S64x1x64
  slices_S16x16x16_o10_0_0_S1x16x16 : S16x16x16.Slices ![10, 0, 0] S1x16x16
  slices_S64x16x64_o0_11_0_S64x1x64 : S64x16x64.Slices ![0, 11, 0] S64x1x64
  slices_S16x16x16_o11_0_0_S1x16x16 : S16x16x16.Slices ![11, 0, 0] S1x16x16
  slices_S64x16x64_o0_12_0_S64x1x64 : S64x16x64.Slices ![0, 12, 0] S64x1x64
  slices_S16x16x16_o12_0_0_S1x16x16 : S16x16x16.Slices ![12, 0, 0] S1x16x16
  slices_S64x16x64_o0_13_0_S64x1x64 : S64x16x64.Slices ![0, 13, 0] S64x1x64
  slices_S16x16x16_o13_0_0_S1x16x16 : S16x16x16.Slices ![13, 0, 0] S1x16x16
  slices_S64x16x64_o0_14_0_S64x1x64 : S64x16x64.Slices ![0, 14, 0] S64x1x64
  slices_S16x16x16_o14_0_0_S1x16x16 : S16x16x16.Slices ![14, 0, 0] S1x16x16
  slices_S64x16x64_o0_15_0_S64x1x64 : S64x16x64.Slices ![0, 15, 0] S64x1x64
  slices_S16x16x16_o15_0_0_S1x16x16 : S16x16x16.Slices ![15, 0, 0] S1x16x16
  transposes_S64x64x16_p0_2_1_S64x16x64 : S64x64x16.Transposes [0, 2, 1] S64x16x64
  scatter_S4096_S478x1_S478_n_0_0_1_wf : ScatterDims.WF S4096 S478x1 S478 [] [0] [0] 1
  dot_S4096x16_S16x16_S4096x16_1_0_0_1_n_n_wf : DotDims.WF S4096x16 S16x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x64.size a ≤ S8192x16x64.size a
  hwx0_0 : ∀ i : grid0.Coords, EltTy.bits .f32 = 32 ∨ (Rect.block (s := S8192x16x64) S64x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16x64.size a ≤ S8192x16x64.size a
  hwx0_1 : ∀ i : grid0.Coords, EltTy.bits .f32 = 32 ∨ (Rect.block (s := S8192x16x64) S64x16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16x16.size a ≤ S16x16x16.size a
  hwx0_2 : ∀ i : grid0.Coords, EltTy.bits .bf16 = 32 ∨ (Rect.block (s := S16x16x16) S16x16x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16x64.size a ≤ S8192x16x64.size a
  hwx0_3 : ∀ i : grid0.Coords, EltTy.bits .f32 = 32 ∨ (Rect.block (s := S8192x16x64) S64x16x64.size (cc0_transform_3 i) (hinb0_3 i)).WholeWords (EltTy.packing .f32)

variable [Facts₀]

def scatter_S4096_S478x1_S478_n_0_0_1 : ScatterDims S4096 S478x1 S478 where
  updateWindowDims := []
  insertedWindowDims := [0]
  scatterDimsToOperandDims := [0]
  indexVectorDim := 1
  wf := scatter_S4096_S478x1_S478_n_0_0_1_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf

abbrev win0_0 : Pipeline.Window sig grid0 :=
  Pipeline.Window.ofSpec (Memref.whole main_arg0) S64x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S16x16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x16x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x16x64 : Shape := ⟨3, ![8192, 16, 64]⟩
abbrev S478 : Shape := ⟨1, ![478]⟩
abbrev S_ : Shape := ⟨0, ![]⟩
abbrev S478x1 : Shape := ⟨2, ![478, 1]⟩
abbrev S8192x478x64 : Shape := ⟨3, ![8192, 478, 64]⟩
abbrev S1x478x1 : Shape := ⟨3, ![1, 478, 1]⟩
abbrev S478x8192x64 : Shape := ⟨3, ![478, 8192, 64]⟩
abbrev S16x8192x64 : Shape := ⟨3, ![16, 8192, 64]⟩

abbrev nBuf : Space → Nat
  | .hbm => 34
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S478, .f32⟩
  | .hbm, ⟨3, _⟩ => ⟨S478, .i32⟩
  | .hbm, ⟨4, _⟩ => ⟨S478, .i32⟩
  | .hbm, ⟨5, _⟩ => ⟨S478, .i32⟩
  | .hbm, ⟨6, _⟩ => ⟨S_, .i32⟩
  | .hbm, ⟨7, _⟩ => ⟨S478, .i32⟩
  | .hbm, ⟨8, _⟩ => ⟨S478, .i1⟩
  | .hbm, ⟨9, _⟩ => ⟨S_, .i32⟩
  | .hbm, ⟨10, _⟩ => ⟨S478, .i32⟩
  | .hbm, ⟨11, _⟩ => ⟨S478, .i32⟩
  | .hbm, ⟨12, _⟩ => ⟨S478, .i32⟩
  | .hbm, ⟨13, _⟩ => ⟨S478x1, .i32⟩
  | .hbm, ⟨14, _⟩ => ⟨S8192x478x64, .f32⟩
  | .hbm, ⟨15, _⟩ => ⟨S_, .i32⟩
  | .hbm, ⟨16, _⟩ => ⟨S478, .i32⟩
  | .hbm, ⟨17, _⟩ => ⟨S478, .i1⟩
  | .hbm, ⟨18, _⟩ => ⟨S_, .i32⟩
  | .hbm, ⟨19, _⟩ => ⟨S478, .i32⟩
  | .hbm, ⟨20, _⟩ => ⟨S478, .i32⟩
  | .hbm, ⟨21, _⟩ => ⟨S478, .i32⟩
  | .hbm, ⟨22, _⟩ => ⟨S478x1, .i32⟩
  | .hbm, ⟨23, _⟩ => ⟨S8192x478x64, .f32⟩
  | .hbm, ⟨24, _⟩ => ⟨S8192x478x64, .f32⟩
  | .hbm, ⟨25, _⟩ => ⟨S1x478x1, .f32⟩
  | .hbm, ⟨26, _⟩ => ⟨S8192x478x64, .f32⟩
  | .hbm, ⟨27, _⟩ => ⟨S8192x478x64, .f32⟩
  | .hbm, ⟨28, _⟩ => ⟨S478x8192x64, .f32⟩
  | .hbm, ⟨29, _⟩ => ⟨S_, .f32⟩
  | .hbm, ⟨30, _⟩ => ⟨S16x8192x64, .f32⟩
  | .hbm, ⟨31, _⟩ => ⟨S478x1, .i32⟩
  | .hbm, ⟨32, _⟩ => ⟨S16x8192x64, .f32⟩
  | .hbm, ⟨33, _⟩ => ⟨S8192x16x64, .f32⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S478 : S_.BroadcastsInDim S478 (![] : Fin 0 → Fin S478.rank)
  bcast_S478_S478x1_0 : S478.BroadcastsInDim S478x1 (![0] : Fin 1 → Fin S478x1.rank)
  bcast_S478_S1x478x1_1 : S478.BroadcastsInDim S1x478x1 (![1] : Fin 1 → Fin S1x478x1.rank)
  bcast_S1x478x1_S8192x478x64_0_1_2 : S1x478x1.BroadcastsInDim S8192x478x64 (![0, 1, 2] : Fin 3 → Fin S8192x478x64.rank)
  transposes_S8192x478x64_S478x8192x64_1_0_2 : S8192x478x64.Transposes [1, 0, 2] S478x8192x64
  bcast_S_S16x8192x64 : S_.BroadcastsInDim S16x8192x64 (![] : Fin 0 → Fin S16x8192x64.rank)
  transposes_S16x8192x64_S8192x16x64_1_0_2 : S16x8192x64.Transposes [1, 0, 2] S8192x16x64
  gather_S8192x16x64_S478x1_S8192x478x64_02_1_n_n_1_1_8192164_wf : GatherDims.WF S8192x16x64 S478x1 S8192x478x64 [0, 2] [1] [] [1] [] 1 ![8192, 1, 64]
  scatter_S16x8192x64_S478x1_S478x8192x64_12_0_0_1_wf : ScatterDims.WF S16x8192x64 S478x1 S478x8192x64 [1, 2] [0] [0] 1

variable [Facts₀]

def gather_S8192x16x64_S478x1_S8192x478x64_02_1_n_n_1_1_8192164 : GatherDims S8192x16x64 S478x1 S8192x478x64 where
  offsetDims := [0, 2]
  collapsedSliceDims := [1]
  operandBatchingDims := []
  startIndicesBatchingDims := []
  startIndexMap := [1]
  indexVectorDim := 1
  sliceSizes := ![8192, 1, 64]
  wf := gather_S8192x16x64_S478x1_S8192x478x64_02_1_n_n_1_1_8192164_wf
def scatter_S16x8192x64_S478x1_S478x8192x64_12_0_0_1 : ScatterDims S16x8192x64 S478x1 S478x8192x64 where
  updateWindowDims := [1, 2]
  insertedWindowDims := [0]
  scatterDimsToOperandDims := [0]
  indexVectorDim := 1
  wf := scatter_S16x8192x64_S478x1_S478x8192x64_12_0_0_1_wf

class Facts : Prop extends Facts₀ where

variable [Facts]
-- ==== Proof.Spec.lean ====
/-
  The coupled tensor product, summed by segments: the one function both programs compute.

  Two arrays X1, X2 of shape [8192, 16, 64], a coefficient vector CG of length 478, and three
  index vectors M1, M2, Ms of length 478 whose words name orders in [0, 16). The result at
  (n, l, c) is the sum, over the entries e whose segment Ms e is l, of
  X1 (n, M1 e, c) * X2 (n, M2 e, c) * CG e.
  An index word is read through `ord` (its value modulo 16), which is the word itself when the
  word is in range; the function is thereby total in its arguments.
-/
import Idealize.ShloMosaic.PureOps
import Idealize.ShloMosaic.PureOps.Ideal
import Idealize.ShloMosaic.Lib.ValueIdx

noncomputable section

open scoped BigOperators
open Idealize.ShloMosaic Idealize.ShloMosaic.ValueIdx

namespace Cert.TP

/-- The shape of the two float arguments and of the result. -/
abbrev SX : Shape := ⟨3, ![8192, 16, 64]⟩
/-- The shape of the coefficient vector and of the three index vectors. -/
abbrev SE : Shape := ⟨1, ![478]⟩

/-- The order an index word names: its value modulo 16. -/
def ord (w : BitVec 32) : Fin 16 := ⟨w.toNat % 16, Nat.mod_lt _ (by decide)⟩

/-- Every word of an index vector, read signed, lies in [0, 16). -/
def InRange (M : IVec SE 32) : Prop := ∀ e : Fin 478, 0 ≤ (M (ix1 e)).toInt ∧ (M (ix1 e)).toInt < 16

/-- Every entry of a float array is a real number. -/
def Fin3 (X : SX.Idx → EReal) : Prop := ∀ i, ∃ r : ℝ, X i = (r : EReal)
def Fin1 (C : SE.Idx → EReal) : Prop := ∀ i, ∃ r : ℝ, C i = (r : EReal)

/-- An in-range word's order has the word's signed value. -/
theorem ord_val {M : IVec SE 32} (h : InRange M) (e : Fin 478) : (M (ix1 e)).toInt = ((ord (M (ix1 e))).val : ℤ) := by
  obtain ⟨h0, h1⟩ := h e
  have hlt : (M (ix1 e)).toNat < 2 ^ 31 := by
    by_contra hc
    have : (M (ix1 e)).toInt < 0 := by
      rw [BitVec.toInt_eq_toNat_cond]; split <;> omega
    omega
  have hi : (M (ix1 e)).toInt = (M (ix1 e)).toNat := by
    rw [BitVec.toInt_eq_toNat_cond, if_pos (by omega)]
  show (M (ix1 e)).toInt = (((M (ix1 e)).toNat % 16 : ℕ) : ℤ)
  omega

/-- The coupled product summed by segments, at (n, l, c). -/
def tpAt (X1 X2 : SX.Idx → EReal) (CG : SE.Idx → EReal) (M1 M2 Ms : IVec SE 32)
    (n : Fin 8192) (l : Fin 16) (c : Fin 64) : EReal :=
  ∑ e ∈ Finset.univ.filter (fun e : Fin 478 => ord (Ms (ix1 e)) = l),
    X1 (ix3 n (ord (M1 (ix1 e))) c) * X2 (ix3 n (ord (M2 (ix1 e))) c) * CG (ix1 e)

/-- The same as an array of shape [8192, 16, 64]. -/
def tp (X1 X2 : SX.Idx → EReal) (CG : SE.Idx → EReal) (M1 M2 Ms : IVec SE 32) : SX.Idx → EReal :=
  fun i => tpAt X1 X2 CG M1 M2 Ms (i 0) (i 1) (i 2)

/-- The flat position an entry lands on in the dense coefficient table of 16 * 16 * 16 entries:
    256 * (first order) + 16 * (second order) + (segment). -/
def pos (M1 M2 Ms : IVec SE 32) (e : Fin 478) : Fin 4096 :=
  ⟨256 * (ord (M1 (ix1 e))).val + 16 * (ord (M2 (ix1 e))).val + (ord (Ms (ix1 e))).val, by
    have h1 := (ord (M1 (ix1 e))).isLt; have h2 := (ord (M2 (ix1 e))).isLt; have h3 := (ord (Ms (ix1 e))).isLt
    omega⟩

/-- The flat position of the table entry (m1, m2, l). -/
def flat (m1 m2 l : Fin 16) : Fin 4096 := ⟨256 * m1.val + 16 * m2.val + l.val, by
    have h1 := m1.isLt; have h2 := m2.isLt; have h3 := l.isLt
    omega⟩

/-- The dense coefficient table: entry (m1, m2, l) is zero plus the sum of the coefficients of
    the entries landing on it. -/
def cgTable (CG : SE.Idx → EReal) (M1 M2 Ms : IVec SE 32) (m1 m2 l : Fin 16) : EReal :=
  0 + ∑ e ∈ Finset.univ.filter (fun e : Fin 478 => pos M1 M2 Ms e = flat m1 m2 l), CG (ix1 e)

/-- The contraction against the dense table, at (n, l, c): the sum over the first order m1 of
    X1 (n, m1, c) times the sum over the second order m2 of X2 (n, m2, c) times the table's
    entry (m1, m2, l). -/
def kernAt (X1 X2 : SX.Idx → EReal) (CG : SE.Idx → EReal) (M1 M2 Ms : IVec SE 32)
    (n : Fin 8192) (l : Fin 16) (c : Fin 64) : EReal :=
  ∑ m1 : Fin 16, X1 (ix3 n m1 c) * ∑ m2 : Fin 16, X2 (ix3 n m2 c) * cgTable CG M1 M2 Ms m1 m2 l

theorem tp_apply (X1 X2 : SX.Idx → EReal) (CG : SE.Idx → EReal) (M1 M2 Ms : IVec SE 32)
    (n : Fin 8192) (l : Fin 16) (c : Fin 64) :
    tp X1 X2 CG M1 M2 Ms (ix3 n l c) = tpAt X1 X2 CG M1 M2 Ms n l c := rfl

end Cert.TP

end
-- ==== Proof.PreFacts.lean ====
/-
  What the precondition says of the arguments: every entry of the three float arrays is a real
  number, and every word of the three index vectors, read signed, lies in [0, 16).
-/
import proofs.«423181_j5231270166734_2_alg».proof.Pre_finite_inputs
import proofs.«423181_j5231270166734_2_alg».proof.Proof.Spec
import Idealize.ShloMosaic.PureOps.Ideal
import Idealize.ShloMosaic.Lib.ReduceAll

noncomputable section

open Idealize.ShloMosaic Idealize.ShloMosaic.ValueIdx

namespace Cert.TP.Pre

/-- The shape of rank zero has exactly one index. -/
theorem subsingleton_scalar : Subsingleton Cert.Pre_finite_inputs.S_.Idx :=
  ⟨fun _ _ => funext fun d => d.elim0⟩

/-- The pattern with all exponent bits set and a zero fraction denotes plus infinity. -/
theorem inf_bits : Ideal.ofBits .f32 0x7F800000#32 = (⊤ : EReal) := by
  simp [Ideal.ofBits, Ideal.ieee]

/-- An extended real whose absolute value, max x (-x), is below plus infinity is a real number:
    at either infinity the maximum is plus infinity itself. -/
theorem real_of_abs_lt_top (x : EReal) (h : Ideal.cmp .olt (max x (-x)) (⊤ : EReal) = 1#1) :
    ∃ r : ℝ, x = (r : EReal) := by
  induction x using EReal.rec with
  | bot => simp [Ideal.cmp] at h
  | top => simp [Ideal.cmp] at h
  | coe r => exact ⟨r, rfl⟩

/-- One element of the comparison |a| < +inf, holding, says the element of a is a real number. -/
theorem flt_elem {s : Shape} (a : FVec Ideal s .f32)
    (h : Cert.Pre_finite_inputs.S_.BroadcastsInDim s (![] : Fin 0 → Fin s.rank)) (i : s.Idx)
    (e : cmpf CmpFPredicate.olt (Host.absf a)
      (broadcastInDim s ![] h (constant (F := Ideal) Cert.Pre_finite_inputs.S_ FTy.f32 0x7F800000#32)) i = 1#1) :
    ∃ r : ℝ, a i = (r : EReal) := by
  apply real_of_abs_lt_top
  rw [← inf_bits]
  exact e

/-- One element of the signed comparison M ≥ 0 against the constant vector, holding. -/
theorem ge_elem (M : IVec Cert.Pre_finite_inputs.S478 32)
    (h : Cert.Pre_finite_inputs.S_.BroadcastsInDim Cert.Pre_finite_inputs.S478
      (![] : Fin 0 → Fin Cert.Pre_finite_inputs.S478.rank)) (i : Cert.Pre_finite_inputs.S478.Idx)
    (e : cmpi CmpIPredicate.sge M
      (broadcastInDim Cert.Pre_finite_inputs.S478 ![] h (constantI Cert.Pre_finite_inputs.S_ 32 0#32)) i = 1#1) :
    0 ≤ (M i).toInt := by
  have h0 : (0#32).toInt ≤ (M i).toInt := IntOp.cmpi_sge.1 e
  have hz : (0#32 : BitVec 32).toInt = 0 := by decide
  omega

/-- One element of the signed comparison M < 16 against the constant vector, holding. -/
theorem lt_elem (M : IVec Cert.Pre_finite_inputs.S478 32)
    (h : Cert.Pre_finite_inputs.S_.BroadcastsInDim Cert.Pre_finite_inputs.S478
      (![] : Fin 0 → Fin Cert.Pre_finite_inputs.S478.rank)) (i : Cert.Pre_finite_inputs.S478.Idx)
    (e : cmpi CmpIPredicate.slt M
      (broadcastInDim Cert.Pre_finite_inputs.S478 ![] h (constantI Cert.Pre_finite_inputs.S_ 32 16#32)) i = 1#1) :
    (M i).toInt < 16 := by
  have h0 : (M i).toInt < (16#32).toInt := IntOp.cmpi_slt.1 e
  have hz : (16#32 : BitVec 32).toInt = 16 := by decide
  omega

/-- The printed precondition, all ones, gives finiteness of the three float arguments and the range
    [0, 16) of the three index arguments. -/
theorem facts_of_pre [Cert.Pre_finite_inputs.Facts]
    (a0 a1 : FVec Ideal Cert.Pre_finite_inputs.S8192x16x64 .f32) (a2 : FVec Ideal Cert.Pre_finite_inputs.S478 .f32)
    (a3 a4 a5 : IVec Cert.Pre_finite_inputs.S478 32)
    (h : Cert.Pre_finite_inputs.fn (F := Ideal) a0 a1 a2 a3 a4 a5 = fun _ => 1#1) :
    Cert.TP.Fin3 a0 ∧ Cert.TP.Fin3 a1 ∧ Cert.TP.Fin1 a2
      ∧ Cert.TP.InRange a3 ∧ Cert.TP.InRange a4 ∧ Cert.TP.InRange a5 := by
  haveI := subsingleton_scalar
  -- the one element of the result is the conjunction of nine conjunctions over all elements
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨h0, h1⟩, h2⟩, h3l⟩, h3u⟩, h4l⟩, h4u⟩, h5l⟩, h5u⟩ := e
  refine ⟨fun i => ?_, fun i => ?_, fun i => ?_, fun k => ⟨?_, ?_⟩, fun k => ⟨?_, ?_⟩, fun k => ⟨?_, ?_⟩⟩
  · exact flt_elem a0 _ i (Host.reduce_andi_all _ _ _ _ _ h0 i)
  · exact flt_elem a1 _ i (Host.reduce_andi_all _ _ _ _ _ h1 i)
  · exact flt_elem a2 _ i (Host.reduce_andi_all _ _ _ _ _ h2 i)
  · exact ge_elem a3 _ (ix1 k) (Host.reduce_andi_all _ _ _ _ _ h3l (ix1 k))
  · exact lt_elem a3 _ (ix1 k) (Host.reduce_andi_all _ _ _ _ _ h3u (ix1 k))
  · exact ge_elem a4 _ (ix1 k) (Host.reduce_andi_all _ _ _ _ _ h4l (ix1 k))
  · exact lt_elem a4 _ (ix1 k) (Host.reduce_andi_all _ _ _ _ _ h4u (ix1 k))
  · exact ge_elem a5 _ (ix1 k) (Host.reduce_andi_all _ _ _ _ _ h5l (ix1 k))
  · exact lt_elem a5 _ (ix1 k) (Host.reduce_andi_all _ _ _ _ _ h5u (ix1 k))

end Cert.TP.Pre

end
-- ==== Proof.LibScatterRows.lean ====
/-
  The host's accumulating scatter of ROWS, read at an index at the ideal instance.

  An operand of N rows, E update rows, and an [E, 1] array of row numbers: update row e is added
  onto operand row (row number of e). At the ideal instance the result at (n, c) is the operand's
  element plus the exact sum of the update elements (e, c) over the e whose row number is n.
  Stated for any dimension-numbers record whose fields are the row scatter's (window axes all
  but the first, first operand axis inserted and named by the one-component index vector), at
  rank 2 and rank 3, for row numbers known to be in range (given as a function into Fin N).
-/
import Idealize.ShloMosaic.PureOps
import Idealize.ShloMosaic.PureOps.Ideal
import Idealize.ShloMosaic.Lib.ValueIdx

open scoped BigOperators
open Idealize.ShloMosaic Idealize.ShloMosaic.ValueIdx

namespace Cert.Att.Lib

/-! ## Rank 2 -/

/-- The row scatter's window start and window coordinate on each operand axis, rank 2: the start
    on axis 0 is the row number read at (u 0, 0) and the window coordinate there is 0; on axis 1
    the start is 0 and the window coordinate is u's second coordinate. -/
theorem start_window_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (u : (⟨2, ![E, C]⟩ : Shape).Idx) :
    d.start u idx 0 = (idx (ix2 (u 0) 0)).toInt ∧ d.start u idx 1 = 0
    ∧ d.window u 0 = 0 ∧ d.window u 1 = (u 1).val := by
  obtain ⟨uw, iw, sd, ivd, wf⟩ := d
  dsimp only at huw hiw hsd hivd
  subst huw hiw hsd hivd
  refine ⟨?_, ?_, ?_, ?_⟩
  · unfold ScatterDims.start
    rw [dif_pos (show (0 : Fin 2) ∈ ([0] : List (Fin 2)) by decide)]
    congr 2
    funext b
    match b with
    | ⟨0, _⟩ => rfl
    | ⟨1, _⟩ => rfl
  · unfold ScatterDims.start
    rw [dif_neg (show (1 : Fin 2) ∉ ([0] : List (Fin 2)) by decide)]
  · unfold ScatterDims.window
    split
    · rename_i ha
      exact absurd ha (show (0 : Fin 2) ∉ (List.finRange 2).filter (fun a => a ∉ ([0] : List (Fin 2))) by decide)
    · rfl
  · unfold ScatterDims.window
    split
    · rfl
    · rename_i ha
      exact absurd (show (1 : Fin 2) ∈ (List.finRange 2).filter (fun a => a ∉ ([0] : List (Fin 2))) by decide) ha

/-- Under the row scatter's dimension numbers and in-range row numbers, update index u lands at
    (row number of u's row, u's column): never dropped. -/
theorem resultIdx?_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨2, ![E, C]⟩ : Shape).Idx) :
    d.resultIdx? u idx = some (ix2 (dst (u 0)) (u 1)) := by
  obtain ⟨h0, h1, hw0, hw1⟩ := start_window_rows2 d huw hiw hsd hivd idx u
  have hd : d.start u idx 0 = ((dst (u 0)).val : ℤ) := h0.trans (hdst (u 0))
  have hlt0 : (dst (u 0)).val < N := (dst (u 0)).isLt
  have hlt1 : (u 1).val < C := idx2_lt1 u
  have hcond : ∀ a, 0 ≤ d.start u idx a + d.window u a ∧
      d.start u idx a + d.window u a < (⟨2, ![N, C]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
    | ⟨1, _⟩ =>
      show 0 ≤ d.start u idx 1 + (d.window u 1 : ℤ) ∧ d.start u idx 1 + (d.window u 1 : ℤ) < (C : ℤ)
      rw [h1, hw1]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega
  | ⟨1, _⟩ =>
    apply Fin.ext
    show (d.start u idx 1 + (d.window u 1 : ℤ)).toNat = (u 1).val
    rw [h1, hw1]
    omega

/-- THE ROW SCATTER AT AN INDEX, rank 2. An accumulating scatter of E update rows of width C
    into an operand of N rows, row e going to the row whose number the [E, 1] index array holds
    at (e, 0) — numbers in range, `dst e` —, is at the ideal instance, at (n, c), the operand's
    element plus the exact sum of `upd (e, c)` over the rows e sent to n. -/
theorem scatterAdd_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w)
    (upd : (⟨2, ![E, C]⟩ : Shape).Idx → EReal)
    (dst : Fin E → Fin N) (hdst : ∀ e, (idx (ix2 e 0)).toInt = ((dst e).val : ℤ))
    (n : Fin N) (c : Fin C) :
    Ideal.hostScatterAdd d x idx upd (ix2 n c) =
      x (ix2 n c) + ∑ e ∈ Finset.univ.filter (fun e => dst e = n), upd (ix2 e c) := by
  unfold Ideal.hostScatterAdd
  congr 1
  symm
  refine Finset.sum_bij (fun e _ => ix2 e c) ?_ ?_ ?_ ?_
  · intro e he
    rw [Finset.mem_filter] at he ⊢
    refine ⟨Finset.mem_univ _, ?_⟩
    rw [resultIdx?_rows2 d huw hiw hsd hivd idx dst hdst]
    show some (ix2 (dst e) c) = some (ix2 n c)
    rw [he.2]
  · intro a _ b _ h
    exact congrFun h 0
  · intro u hu
    rw [Finset.mem_filter, resultIdx?_rows2 d huw hiw hsd hivd idx dst hdst] at hu
    have hu' := Option.some.inj hu.2
    have e0 : dst (u 0) = n := congrFun hu' 0
    have e1 : u 1 = c := congrFun hu' 1
    refine ⟨u 0, Finset.mem_filter.2 ⟨Finset.mem_univ _, e0⟩, ?_⟩
    rw [← e1]
    exact (eq_ix2 u).symm
  · intro e _
    rfl

/-! ## Rank 3 -/

/-- The row scatter's window start and window coordinate on each operand axis, rank 3: the start
    on axis 0 is the row number read at (u 0, 0) and the window coordinate there is 0; on axes 1
    and 2 the start is 0 and the window coordinate is u's coordinate on that axis. -/
theorem start_window_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (idx : IVec ⟨2, ![E, 1]⟩ w) (u : (⟨3, ![E, H, D]⟩ : Shape).Idx) :
    d.start u idx 0 = (idx (ix2 (u 0) 0)).toInt ∧ d.start u idx 1 = 0 ∧ d.start u idx 2 = 0
    ∧ d.window u 0 = 0 ∧ d.window u 1 = (u 1).val ∧ d.window u 2 = (u 2).val := by
  obtain ⟨uw, iw, sd, ivd, wf⟩ := d
  dsimp only at huw hiw hsd hivd
  subst huw hiw hsd hivd
  refine ⟨?_, ?_, ?_, ?_, ?_, ?_⟩
  · unfold ScatterDims.start
    rw [dif_pos (show (0 : Fin 3) ∈ ([0] : List (Fin 3)) by decide)]
    congr 2
    funext b
    match b with
    | ⟨0, _⟩ => rfl
    | ⟨1, _⟩ => rfl
  · unfold ScatterDims.start
    rw [dif_neg (show (1 : Fin 3) ∉ ([0] : List (Fin 3)) by decide)]
  · unfold ScatterDims.start
    rw [dif_neg (show (2 : Fin 3) ∉ ([0] : List (Fin 3)) by decide)]
  · unfold ScatterDims.window
    split
    · rename_i ha
      exact absurd ha (show (0 : Fin 3) ∉ (List.finRange 3).filter (fun a => a ∉ ([0] : List (Fin 3))) by decide)
    · rfl
  · unfold ScatterDims.window
    split
    · rfl
    · rename_i ha
      exact absurd (show (1 : Fin 3) ∈ (List.finRange 3).filter (fun a => a ∉ ([0] : List (Fin 3))) by decide) ha
  · unfold ScatterDims.window
    split
    · rfl
    · rename_i ha
      exact absurd (show (2 : Fin 3) ∈ (List.finRange 3).filter (fun a => a ∉ ([0] : List (Fin 3))) by decide) ha

/-- Under the row scatter's dimension numbers and in-range row numbers, rank 3, update index u
    lands at (row number of u's row, u's second coordinate, u's third): never dropped. -/
theorem resultIdx?_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨3, ![E, H, D]⟩ : Shape).Idx) :
    d.resultIdx? u idx = some (ix3 (dst (u 0)) (u 1) (u 2)) := by
  obtain ⟨h0, h1, h2, hw0, hw1, hw2⟩ := start_window_rows3 d huw hiw hsd hivd idx u
  have hd : d.start u idx 0 = ((dst (u 0)).val : ℤ) := h0.trans (hdst (u 0))
  have hlt0 : (dst (u 0)).val < N := (dst (u 0)).isLt
  have hlt1 : (u 1).val < H := (u 1).isLt
  have hlt2 : (u 2).val < D := (u 2).isLt
  have hcond : ∀ a, 0 ≤ d.start u idx a + d.window u a ∧
      d.start u idx a + d.window u a < (⟨3, ![N, H, D]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
    | ⟨1, _⟩ =>
      show 0 ≤ d.start u idx 1 + (d.window u 1 : ℤ) ∧ d.start u idx 1 + (d.window u 1 : ℤ) < (H : ℤ)
      rw [h1, hw1]
      omega
    | ⟨2, _⟩ =>
      show 0 ≤ d.start u idx 2 + (d.window u 2 : ℤ) ∧ d.start u idx 2 + (d.window u 2 : ℤ) < (D : ℤ)
      rw [h2, hw2]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega
  | ⟨1, _⟩ =>
    apply Fin.ext
    show (d.start u idx 1 + (d.window u 1 : ℤ)).toNat = (u 1).val
    rw [h1, hw1]
    omega
  | ⟨2, _⟩ =>
    apply Fin.ext
    show (d.start u idx 2 + (d.window u 2 : ℤ)).toNat = (u 2).val
    rw [h2, hw2]
    omega

/-- THE ROW SCATTER AT AN INDEX, rank 3. An accumulating scatter of E update rows, each an H by D
    block, into an operand of N such rows, row e going to the row whose number the [E, 1] index
    array holds at (e, 0) — numbers in range, `dst e` —, is at the ideal instance, at (n, h, j),
    the operand's element plus the exact sum of `upd (e, h, j)` over the rows e sent to n. -/
theorem scatterAdd_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (x : (⟨3, ![N, H, D]⟩ : Shape).Idx → EReal) (idx : IVec ⟨2, ![E, 1]⟩ w)
    (upd : (⟨3, ![E, H, D]⟩ : Shape).Idx → EReal)
    (dst : Fin E → Fin N) (hdst : ∀ e, (idx (ix2 e 0)).toInt = ((dst e).val : ℤ))
    (n : Fin N) (h : Fin H) (j : Fin D) :
    Ideal.hostScatterAdd d x idx upd (ix3 n h j) =
      x (ix3 n h j) + ∑ e ∈ Finset.univ.filter (fun e => dst e = n), upd (ix3 e h j) := by
  unfold Ideal.hostScatterAdd
  congr 1
  symm
  refine Finset.sum_bij (fun e _ => ix3 e h j) ?_ ?_ ?_ ?_
  · intro e he
    rw [Finset.mem_filter] at he ⊢
    refine ⟨Finset.mem_univ _, ?_⟩
    rw [resultIdx?_rows3 d huw hiw hsd hivd idx dst hdst]
    show some (ix3 (dst e) h j) = some (ix3 n h j)
    rw [he.2]
  · intro a _ b _ hab
    exact congrFun hab 0
  · intro u hu
    rw [Finset.mem_filter, resultIdx?_rows3 d huw hiw hsd hivd idx dst hdst] at hu
    have hu' := Option.some.inj hu.2
    have e0 : dst (u 0) = n := congrFun hu' 0
    have e1 : u 1 = h := congrFun hu' 1
    have e2 : u 2 = j := congrFun hu' 2
    refine ⟨u 0, Finset.mem_filter.2 ⟨Finset.mem_univ _, e0⟩, ?_⟩
    rw [← e1, ← e2]
    exact (eq_ix3 u).symm
  · intro e _
    rfl

end Cert.Att.Lib
-- ==== Proof.RefValue.lean ====
/-
  The reference computes the segment sum.

  The reference gathers rows M1 of X1 and rows M2 of X2 along the middle axis, multiplies them and
  the coefficients entry by entry, and adds entry e's [8192, 64] slab onto segment Ms e of a zero
  array. With in-range words no gather start is clamped and no update is dropped, so the result at
  (n, l, c) is zero plus the sum over the entries with segment l of
  X1 (n, M1 e, c) * X2 (n, M2 e, c) * CG e.
-/
import proofs.«423181_j5231270166734_2_alg».proof.Proof.Gen.ReferenceIdeal.Read
import proofs.«423181_j5231270166734_2_alg».proof.Proof.Spec
import proofs.«423181_j5231270166734_2_alg».proof.Proof.LibScatterRows
import Idealize.ShloMosaic.PureOps.Ideal
import Idealize.ShloMosaic.Lib.ValueIdx
import Idealize.ShloMosaic.Lib.Pipeline.Value

noncomputable section

open scoped BigOperators
open Idealize.ShloMosaic Idealize.ShloMosaic.ValueIdx

namespace Cert.TP.Ref

open Cert.ReferenceIdeal Cert.ReferenceIdeal.Gen

local notation "gd" => gather_S8192x16x64_S478x1_S8192x478x64_02_1_n_n_1_1_8192164

/-- The middle-axis gather read at (n, e, c): with the start word of entry e equal to m, the operand at (n, m, c). -/
theorem gather_mid {α : Type} (x : S8192x16x64.Idx → α) (idx : IVec S478x1 32)
    (n : Fin 8192) (e : Fin 478) (c : Fin 64) (m : Fin 16)
    (hm : (idx (ix2 e 0)).toInt = (m.val : ℤ)) :
    Host.gather gd x idx (ix3 n e c) = x (ix3 n m c) := by
  unfold Host.gather
  congr 1
  funext a
  refine Fin.ext ?_
  match a with
  | ⟨0, _⟩ =>
    show GatherDims.start gd (ix3 n e c) idx 0 + GatherDims.batchCoord gd (ix3 n e c) 0 + GatherDims.offCoord gd (ix3 n e c) 0 = n.val
    rw [GatherDims.batchCoord_eq_zero _ _ _ List.not_mem_nil]
    unfold GatherDims.start
    rw [dif_neg (show (0 : Fin 3) ∉ GatherDims.startIndexMap gd from (by decide : (0 : Fin 3) ∉ ([1] : List (Fin 3))))]
    unfold GatherDims.offCoord
    rw [dif_pos (show (0 : Fin 3) ∈ GatherDims.sKept gd from (by decide : (0 : Fin 3) ∈ ([0, 2] : List (Fin 3)))),
      Nat.add_zero, Nat.zero_add]
    rfl
  | ⟨1, _⟩ =>
    show GatherDims.start gd (ix3 n e c) idx 1 + GatherDims.batchCoord gd (ix3 n e c) 1 + GatherDims.offCoord gd (ix3 n e c) 1 = m.val
    rw [GatherDims.batchCoord_eq_zero _ _ _ List.not_mem_nil,
      GatherDims.offCoord_eq_zero _ _ _ (show (1 : Fin 3) ∉ GatherDims.sKept gd from (by decide : (1 : Fin 3) ∉ ([0, 2] : List (Fin 3)))),
      Nat.add_zero]
    unfold GatherDims.start
    rw [dif_pos (show (1 : Fin 3) ∈ GatherDims.startIndexMap gd from (by decide : (1 : Fin 3) ∈ ([1] : List (Fin 3))))]
    have hsi : GatherDims.siIdx gd (ix3 n e c) ⟨List.idxOf (1 : Fin 3) (GatherDims.startIndexMap gd),
        List.idxOf_lt_length_iff.2 (show (1 : Fin 3) ∈ GatherDims.startIndexMap gd from (by decide : (1 : Fin 3) ∈ ([1] : List (Fin 3))))⟩
        = ix2 e 0 := by
      funext b; refine Fin.ext ?_
      match b with
      | ⟨0, _⟩ => rfl
      | ⟨1, _⟩ => rfl
    rw [hsi, hm]
    show min ((m.val : ℤ)).toNat (16 - 1) = m.val
    have := m.isLt
    omega
  | ⟨2, _⟩ =>
    show GatherDims.start gd (ix3 n e c) idx 2 + GatherDims.batchCoord gd (ix3 n e c) 2 + GatherDims.offCoord gd (ix3 n e c) 2 = c.val
    rw [GatherDims.batchCoord_eq_zero _ _ _ List.not_mem_nil]
    unfold GatherDims.start
    rw [dif_neg (show (2 : Fin 3) ∉ GatherDims.startIndexMap gd from (by decide : (2 : Fin 3) ∉ ([1] : List (Fin 3))))]
    unfold GatherDims.offCoord
    rw [dif_pos (show (2 : Fin 3) ∈ GatherDims.sKept gd from (by decide : (2 : Fin 3) ∈ ([0, 2] : List (Fin 3)))),
      Nat.add_zero, Nat.zero_add]
    rfl

/-- A word that is non-negative read signed is not below zero: the comparison's bit is clear. -/
theorem cmpi_slt_zero {w : BitVec 32} (h : 0 ≤ w.toInt) : IntOp.cmpi .slt w 0#32 = 0#1 := by
  have hf : w.slt 0#32 = false := by
    apply Bool.eq_false_iff.2
    intro hc
    have hlt := BitVec.slt_iff_toInt_lt.1 hc
    have h0 : (0#32 : BitVec 32).toInt = 0 := by decide
    omega
  show BitVec.ofBool (w.slt 0#32) = 0#1
  rw [hf]; rfl

/-- The start column built from the first index vector holds, at (e, 0), the word of entry e itself: the wrap-around
    of negative words never fires on an in-range word. Its signed value is the order the word names. -/
theorem start_col3 (x3 : IVec S478 32) (h3 : Cert.TP.InRange x3) (e : Fin 478) :
    (Cert.ReferenceIdeal.Read.val_main_v5 (F := Ideal) x3 (ix2 e 0)).toInt = ((Cert.TP.ord (x3 (ix1 e))).val : ℤ) := by
  have hi : Cert.ReferenceIdeal.Read.idx_main_v5 (ix2 e 0) = ix1 e := by
    funext a; match a with | ⟨0, _⟩ => rfl
  rw [Read.val_main_v5_apply, Read.val_main_v4_apply, Read.val_main_v1_apply, Read.val_main_v0_apply,
    Read.val_main_c_apply, hi, cmpi_slt_zero (h3 e).1, select_zero]
  exact Cert.TP.ord_val h3 e

/-- The same for the start column built from the second index vector. -/
theorem start_col4 (x4 : IVec S478 32) (h4 : Cert.TP.InRange x4) (e : Fin 478) :
    (Cert.ReferenceIdeal.Read.val_main_v12 (F := Ideal) x4 (ix2 e 0)).toInt = ((Cert.TP.ord (x4 (ix1 e))).val : ℤ) := by
  have hi : Cert.ReferenceIdeal.Read.idx_main_v12 (ix2 e 0) = ix1 e := by
    funext a; match a with | ⟨0, _⟩ => rfl
  rw [Read.val_main_v12_apply, Read.val_main_v11_apply, Read.val_main_v8_apply, Read.val_main_v7_apply,
    Read.val_main_c_1_apply, hi, cmpi_slt_zero (h4 e).1, select_zero]
  exact Cert.TP.ord_val h4 e

local notation "sd" => scatter_S16x8192x64_S478x1_S478x8192x64_12_0_0_1

/-- With in-range index words, the reference's result is the segment sum. -/
theorem ref_eq_tp (x0 x1 : FVec Ideal S8192x16x64 .f32) (x2 : FVec Ideal S478 .f32) (x3 x4 x5 : IVec S478 32)
    (h3 : Cert.TP.InRange x3) (h4 : Cert.TP.InRange x4) (h5 : Cert.TP.InRange x5) :
    Cert.ReferenceIdeal.Read.val_main_v22 (F := Ideal) x0 x1 x2 x3 x4 x5 = Cert.TP.tp x0 x1 x2 x3 x4 x5 := by
  funext i
  obtain ⟨n, l, c, rfl⟩ : ∃ (n : Fin 8192) (l : Fin 16) (c : Fin 64), i = ix3 n l c := ⟨i 0, i 1, i 2, eq_ix3 i⟩
  have hi22 : Read.idx_main_v22 (ix3 n l c) = ix3 l n c := by
    funext a; match a with | ⟨0, _⟩ => rfl | ⟨1, _⟩ => rfl | ⟨2, _⟩ => rfl
  rw [Cert.TP.tp_apply, Read.val_main_v22_apply, hi22]
  -- the scatter: the zero array plus, at (l, n, c), the update rows e whose segment is l
  have hdst : ∀ e : Fin 478, (Read.val_main_v20 (F := Ideal) x5 (ix2 e 0)).toInt
      = (((fun e : Fin 478 => Cert.TP.ord (x5 (ix1 e))) e).val : ℤ) := by
    intro e
    have hi : Read.idx_main_v20 (ix2 e 0) = ix1 e := by
      funext a; match a with | ⟨0, _⟩ => rfl
    rw [Read.val_main_v20_apply, hi]
    exact Cert.TP.ord_val h5 e
  show Ideal.hostScatterAdd sd (Read.val_main_v19 (F := Ideal)) (Read.val_main_v20 (F := Ideal) x5)
      (Read.val_main_v18 (F := Ideal) x0 x1 x2 x3 x4) (ix3 l n c) = _
  rw [Cert.Att.Lib.scatterAdd_rows3 sd rfl rfl rfl rfl _ _ _ (fun e : Fin 478 => Cert.TP.ord (x5 (ix1 e))) hdst l n c]
  -- the operand is the zero array
  have hz : Read.val_main_v19 (F := Ideal) (ix3 l n c) = 0 := by
    rw [Read.val_main_v19_apply, Read.val_main_cst_apply]
    simp [Ideal.ofBits, Ideal.ieee]
  rw [hz, zero_add]
  unfold Cert.TP.tpAt
  refine Finset.sum_congr rfl (fun e _ => ?_)
  -- update row e at (n, c): the two gathered elements' product times the coefficient
  have hi18 : Read.idx_main_v18 (ix3 e n c) = ix3 n e c := by
    funext a; match a with | ⟨0, _⟩ => rfl | ⟨1, _⟩ => rfl | ⟨2, _⟩ => rfl
  have hi16 : Read.idx_main_v15 (Read.idx_main_v16 (ix3 n e c)) = ix1 e := by
    funext a; match a with | ⟨0, _⟩ => rfl
  rw [Read.val_main_v18_apply, hi18, Read.val_main_v17_apply, Read.val_main_v14_apply, Read.val_main_v16_apply,
    Read.val_main_v15_apply, hi16]
  unfold Read.val_main_v6 Read.val_main_v13
  rw [gather_mid x0 _ n e c _ (start_col3 x3 h3 e), gather_mid x1 _ n e c _ (start_col4 x4 h4 e)]
  rfl

end Cert.TP.Ref

end
-- ==== Proof.Algebra.lean ====
/-
  The contraction against the dense coefficient table is the segment sum.

  For real-valued X1, X2 and coefficients CG: summing, over the first order m1 and the second
  order m2, X1 (n, m1, c) * X2 (n, m2, c) times the table's entry (m1, m2, l) — itself the sum of the
  coefficients of the entries e landing on position 256 m1 + 16 m2 + l — regroups the entries by
  their position: every entry e with segment l lands on exactly one (m1, m2), namely its own two
  orders, so the double sum is the sum over those entries of X1 (n, M1 e, c) * X2 (n, M2 e, c) * CG e.
  The regrouping distributes a product over a sum, which on the extended reals needs the factors to
  be real numbers.
-/
import proofs.«423181_j5231270166734_2_alg».proof.Proof.Spec

noncomputable section

open scoped BigOperators
open Idealize.ShloMosaic Idealize.ShloMosaic.ValueIdx

namespace Cert.TP

/-- The coercion of the reals into the extended reals commutes with finite sums. -/
theorem coe_finsum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- An entry lands on the table position (m1, m2, l) exactly when its two orders are m1 and m2
    and its segment is l: the three numbers are the base-16 digits of the position. -/
theorem pos_eq_flat_iff (M1 M2 Ms : IVec SE 32) (e : Fin 478) (m1 m2 l : Fin 16) :
    pos M1 M2 Ms e = flat m1 m2 l ↔
      ord (M1 (ix1 e)) = m1 ∧ ord (M2 (ix1 e)) = m2 ∧ ord (Ms (ix1 e)) = l := by
  have a1 := (ord (M1 (ix1 e))).isLt
  have a2 := (ord (M2 (ix1 e))).isLt
  have a3 := (ord (Ms (ix1 e))).isLt
  have b1 := m1.isLt
  have b2 := m2.isLt
  have b3 := l.isLt
  simp only [pos, flat, Fin.ext_iff]
  omega

/-- The regrouping over the reals: the double sum over the orders of the table contraction is the
    sum over the entries of the segment, each entry contributing at its own two orders. -/
theorem regroup (a b : Fin 16 → ℝ) (g : Fin 478 → ℝ) (M1 M2 Ms : IVec SE 32) (l : Fin 16) :
    (∑ m1 : Fin 16, a m1 * ∑ m2 : Fin 16, b m2 *
        ∑ e ∈ Finset.univ.filter (fun e : Fin 478 => pos M1 M2 Ms e = flat m1 m2 l), g e)
      = ∑ e ∈ Finset.univ.filter (fun e : Fin 478 => ord (Ms (ix1 e)) = l),
          a (ord (M1 (ix1 e))) * b (ord (M2 (ix1 e))) * g e := by
  classical
  -- distribute the two factors into the innermost sum
  have step1 : ∀ m1 : Fin 16, a m1 * ∑ m2 : Fin 16, b m2 *
        ∑ e ∈ Finset.univ.filter (fun e : Fin 478 => pos M1 M2 Ms e = flat m1 m2 l), g e
      = ∑ m2 : Fin 16, ∑ e : Fin 478,
          if ord (M1 (ix1 e)) = m1 ∧ ord (M2 (ix1 e)) = m2 ∧ ord (Ms (ix1 e)) = l
          then a m1 * b m2 * g e else 0 := by
    intro m1
    rw [Finset.mul_sum]
    refine Finset.sum_congr rfl ?_
    intro m2 _
    rw [Finset.mul_sum, Finset.mul_sum, Finset.sum_filter]
    refine Finset.sum_congr rfl ?_
    intro e _
    simp only [pos_eq_flat_iff]
    split
    · ring
    · rfl
  -- for one entry, the double sum over the orders has a single non-zero term
  have step2 : ∀ e : Fin 478, (∑ m1 : Fin 16, ∑ m2 : Fin 16,
        if ord (M1 (ix1 e)) = m1 ∧ ord (M2 (ix1 e)) = m2 ∧ ord (Ms (ix1 e)) = l
        then a m1 * b m2 * g e else 0)
      = if ord (Ms (ix1 e)) = l then a (ord (M1 (ix1 e))) * b (ord (M2 (ix1 e))) * g e else 0 := by
    intro e
    rw [Finset.sum_eq_single (ord (M1 (ix1 e)))]
    · rw [Finset.sum_eq_single (ord (M2 (ix1 e)))]
      · simp only [true_and]
      · intro m2 _ hne
        rw [if_neg]
        rintro ⟨_, h, _⟩
        exact hne h.symm
      · intro h
        exact absurd (Finset.mem_univ _) h
    · intro m1 _ hne
      refine Finset.sum_eq_zero ?_
      intro m2 _
      rw [if_neg]
      rintro ⟨h, _⟩
      exact hne h.symm
    · intro h
      exact absurd (Finset.mem_univ _) h
  rw [Finset.sum_congr rfl (fun m1 _ => step1 m1), Finset.sum_filter]
  -- bring the sum over the entries outside
  calc (∑ m1 : Fin 16, ∑ m2 : Fin 16, ∑ e : Fin 478,
          if ord (M1 (ix1 e)) = m1 ∧ ord (M2 (ix1 e)) = m2 ∧ ord (Ms (ix1 e)) = l
          then a m1 * b m2 * g e else 0)
      = ∑ m1 : Fin 16, ∑ e : Fin 478, ∑ m2 : Fin 16,
          if ord (M1 (ix1 e)) = m1 ∧ ord (M2 (ix1 e)) = m2 ∧ ord (Ms (ix1 e)) = l
          then a m1 * b m2 * g e else 0 :=
        Finset.sum_congr rfl (fun m1 _ => Finset.sum_comm)
    _ = ∑ e : Fin 478, ∑ m1 : Fin 16, ∑ m2 : Fin 16,
          if ord (M1 (ix1 e)) = m1 ∧ ord (M2 (ix1 e)) = m2 ∧ ord (Ms (ix1 e)) = l
          then a m1 * b m2 * g e else 0 := Finset.sum_comm
    _ = _ := Finset.sum_congr rfl (fun e _ => step2 e)

/-- For real-valued arguments the contraction against the dense table is the segment sum. -/
theorem kernAt_eq_tpAt (X1 X2 : SX.Idx → EReal) (CG : SE.Idx → EReal) (M1 M2 Ms : IVec SE 32)
    (h1 : Fin3 X1) (h2 : Fin3 X2) (hc : Fin1 CG) (n : Fin 8192) (l : Fin 16) (c : Fin 64) :
    kernAt X1 X2 CG M1 M2 Ms n l c = tpAt X1 X2 CG M1 M2 Ms n l c := by
  choose r1 hr1 using h1
  choose r2 hr2 using h2
  choose rc hrc using hc
  unfold kernAt tpAt cgTable
  simp only [hr1, hr2, hrc, zero_add, ← coe_finsum, ← EReal.coe_mul]
  congr 1
  exact regroup (fun m => r1 (ix3 n m c)) (fun m => r2 (ix3 n m c)) (fun e => rc (ix1 e)) M1 M2 Ms l

end Cert.TP

end
-- ==== Proof.KernelBody.lean ====
/-
  One grid point of the kernel, read at an index.

  At a grid point the kernel holds a [64, 16, 64] block x of the first argument, the block y of the
  second at the same rows, and the whole [16, 16, 16] coefficient table T. It forms y with its last
  two axes exchanged, laid out as a [4096, 16] matrix (row 64 n + c holds y (n, ·, c)); then, for each
  first order k in turn, it multiplies that matrix by the k-th [16, 16] slab of T, reads the product
  back as a [64, 64, 16] array, and adds x (n, k, c) times it onto an accumulator that started at
  zero; the block it writes back is the accumulator with its last two axes exchanged. So the block's
  entry (n, l, c) is the sum over k of x (n, k, c) times the sum over j of y (n, j, c) * T (k, j, l),
  the outer sum taken in the order k = 0, 1, …, 15 from zero.
-/
import proofs.«423181_j5231270166734_2_alg».proof.Proof.Gen.KernelIdeal.Value
import Idealize.ShloMosaic.PureOps.Ideal.Laws
import Idealize.ShloMosaic.Lib.ValueIdx
import Idealize.ShloMosaic.Lib.Pipeline.Value

set_option maxRecDepth 16384

noncomputable section

open scoped BigOperators
open Idealize.ShloMosaic Idealize.ShloMosaic.ValueIdx Idealize.ShloMosaic.TcCoe Idealize.SL.Sem

namespace Cert.TP.Body

open Cert.KernelIdeal Cert.KernelIdeal.Gen

/-! ## Layout operations of the body's shapes, read at explicit coordinates -/

section Layout
variable {α : Type}

/-- A [64, 64, 1] column laid along the last axis of a [64, 64, 16] array reads, at (n, c, l), the
    column at (n, c, 0). -/
theorem bcast_col_apply (col : S64x64x1.Idx → α) (h : S64x64x1.Broadcasts S64x64x16) (n c : Fin 64) (l : Fin 16) :
    broadcastTo S64x64x16 col h (ix3 n c l) = col (ix3 n c 0) := by
  refine broadcastTo_apply col h (ix3 n c l) (ix3 n c 0) (fun a => ?_)
  match a with
  | ⟨0, _⟩ => show n.val = if (64 : Nat) = 1 then 0 else n.val; rw [if_neg (by decide)]
  | ⟨1, _⟩ => show c.val = if (64 : Nat) = 1 then 0 else c.val; rw [if_neg (by decide)]
  | ⟨2, _⟩ => show (0 : Nat) = if (1 : Nat) = 1 then 0 else l.val; rw [if_pos rfl]

/-- A [64, 64] array read as [64, 64, 1]. -/
theorem cast_col3_apply (u : S64x64.Idx → α) (h : S64x64.ShapeCasts S64x64x1) (n c : Fin 64) :
    shapeCast S64x64x1 u h (ix3 n c 0) = u (ix2 n c) := by
  refine shapeCast_apply u h (ix3 n c 0) (ix2 n c) ?_
  rw [Shape.rowMajor_val_two, Shape.rowMajor_val_three]
  show n.val * 64 + c.val = (n.val * 64 + c.val) * 1 + 0
  omega

/-- A [64, 1, 64] array read as [64, 64]. -/
theorem cast_mid_apply (s : S64x1x64.Idx → α) (h : S64x1x64.ShapeCasts S64x64) (n c : Fin 64) :
    shapeCast S64x64 s h (ix2 n c) = s (ix3 n 0 c) := by
  refine shapeCast_apply s h (ix2 n c) (ix3 n 0 c) ?_
  rw [Shape.rowMajor_val_two, Shape.rowMajor_val_three]
  show (n.val * 1 + 0) * 64 + c.val = n.val * 64 + c.val
  omega

/-- A slice of one middle coordinate starts below 16. -/
theorem slice_mid_lt {k : Nat} (h : S64x16x64.Slices ![0, k, 0] S64x1x64) : k < 16 := by
  obtain ⟨_, hh⟩ := h
  exact Nat.lt_of_succ_le (hh 1)

/-- A slab of one leading coordinate starts below 16. -/
theorem slab_lt {k : Nat} (h : S16x16x16.Slices ![k, 0, 0] S1x16x16) : k < 16 := by
  obtain ⟨_, hh⟩ := h
  exact Nat.lt_of_succ_le (hh 0)

/-- The slice of a [64, 16, 64] array at middle coordinate k. -/
theorem slice_mid_apply (k : Nat) (x : S64x16x64.Idx → α) (h : S64x16x64.Slices ![0, k, 0] S64x1x64)
    (n c : Fin 64) :
    extractStridedSlice S64x1x64 ![0, k, 0] x h (ix3 n 0 c) = x (ix3 n ⟨k, slice_mid_lt h⟩ c) := by
  refine extractStridedSlice_apply ![0, k, 0] x h (ix3 n 0 c) (ix3 n ⟨k, slice_mid_lt h⟩ c) (fun a => ?_)
  match a with
  | ⟨0, _⟩ => show n.val = 0 + n.val; omega
  | ⟨1, _⟩ => show k = k + 0; omega
  | ⟨2, _⟩ => show c.val = 0 + c.val; omega

/-- The k-th [16, 16] slab of a [16, 16, 16] array. -/
theorem slab_apply (k : Nat) (T : S16x16x16.Idx → α) (h : S16x16x16.Slices ![k, 0, 0] S1x16x16)
    (h' : S1x16x16.ShapeCasts S16x16) (j l : Fin 16) :
    shapeCast S16x16 (extractStridedSlice S1x16x16 ![k, 0, 0] T h) h' (ix2 j l) = T (ix3 ⟨k, slab_lt h⟩ j l) := by
  refine (shapeCast_apply _ h' (ix2 j l) (ix3 0 j l) ?_).trans ?_
  · rw [Shape.rowMajor_val_two, Shape.rowMajor_val_three]
    show (0 * 16 + j.val) * 16 + l.val = j.val * 16 + l.val
    omega
  · refine extractStridedSlice_apply ![k, 0, 0] T h (ix3 0 j l) (ix3 ⟨k, slab_lt h⟩ j l) (fun a => ?_)
    match a with
    | ⟨0, _⟩ => show k = k + 0; omega
    | ⟨1, _⟩ => show j.val = 0 + j.val; omega
    | ⟨2, _⟩ => show l.val = 0 + l.val; omega

/-- A [64, 16, 64] array with its last two axes exchanged. -/
theorem swap_to_cl_apply (x : S64x16x64.Idx → α) (h : S64x16x64.Transposes [0, 2, 1] S64x64x16) (n c : Fin 64) (l : Fin 16) :
    transpose S64x64x16 [0, 2, 1] x h (ix3 n c l) = x (ix3 n l c) := by
  refine transpose_apply [0, 2, 1] x h (ix3 n c l) (ix3 n l c) (fun b => ?_)
  match b with
  | ⟨0, _⟩ => rfl
  | ⟨1, _⟩ => rfl
  | ⟨2, _⟩ => rfl

/-- A [64, 64, 16] array with its last two axes exchanged. -/
theorem swap_to_lc_apply (x : S64x64x16.Idx → α) (h : S64x64x16.Transposes [0, 2, 1] S64x16x64) (n c : Fin 64) (l : Fin 16) :
    transpose S64x16x64 [0, 2, 1] x h (ix3 n l c) = x (ix3 n c l) := by
  refine transpose_apply [0, 2, 1] x h (ix3 n l c) (ix3 n c l) (fun b => ?_)
  match b with
  | ⟨0, _⟩ => rfl
  | ⟨1, _⟩ => rfl
  | ⟨2, _⟩ => rfl

/-- Row 64 n + c of the [4096, 16] matrix. -/
def row (n c : Fin 64) : Fin 4096 := ⟨64 * n.val + c.val, by have := n.isLt; have := c.isLt; omega⟩

/-- A [64, 64, 16] array read as a [4096, 16] matrix. -/
theorem cast_flat_apply (x : S64x64x16.Idx → α) (h : S64x64x16.ShapeCasts S4096x16) (n c : Fin 64) (j : Fin 16) :
    shapeCast S4096x16 x h (ix2 (row n c) j) = x (ix3 n c j) := by
  refine shapeCast_apply x h (ix2 (row n c) j) (ix3 n c j) ?_
  rw [Shape.rowMajor_val_two, Shape.rowMajor_val_three]
  show (n.val * 64 + c.val) * 16 + j.val = (64 * n.val + c.val) * 16 + j.val
  omega

/-- A [4096, 16] matrix read as a [64, 64, 16] array. -/
theorem cast_unflat_apply (x : S4096x16.Idx → α) (h : S4096x16.ShapeCasts S64x64x16) (n c : Fin 64) (l : Fin 16) :
    shapeCast S64x64x16 x h (ix3 n c l) = x (ix2 (row n c) l) := by
  refine shapeCast_apply x h (ix3 n c l) (ix2 (row n c) l) ?_
  rw [Shape.rowMajor_val_two, Shape.rowMajor_val_three]
  show (64 * n.val + c.val) * 16 + l.val = (n.val * 64 + c.val) * 16 + l.val
  omega

end Layout

/-! ## A read-back after a last store of the whole buffer -/

/-- A load of the whole buffer after a list of stores whose LAST one stored the whole buffer reads
    that store's payload, whatever was stored before. -/
theorem readCov_cons_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

theorem hz3 : (![0, 0, 0] : Fin 3 → Nat) = fun _ => 0 := funext fun a => by fin_cases a <;> rfl

/-! ## The matrix product of the body, read at an index -/

theorem lhs_0 (i : S4096x16.Idx) (q : dot_S4096x16_S16x16_S4096x16_1_0_0_1_n_n.contr.Idx) :
    (dot_S4096x16_S16x16_S4096x16_1_0_0_1_n_n.lhsIdx i q 0).val = (i 0).val := by
  unfold DotDims.lhsIdx
  rw [dif_neg (show ¬(0 : Fin S4096x16.rank) ∈ dot_S4096x16_S16x16_S4096x16_1_0_0_1_n_n.lhsBatch by decide), dif_pos (show (0 : Fin S4096x16.rank) ∈ dot_S4096x16_S16x16_S4096x16_1_0_0_1_n_n.lhsNonContracting by decide)]
  rfl
theorem lhs_1 (i : S4096x16.Idx) (q : dot_S4096x16_S16x16_S4096x16_1_0_0_1_n_n.contr.Idx) :
    (dot_S4096x16_S16x16_S4096x16_1_0_0_1_n_n.lhsIdx i q 1).val = (q ⟨0, by decide⟩).val :=
  dot_S4096x16_S16x16_S4096x16_1_0_0_1_n_n.lhsIdx_val_of_single rfl i q
theorem rhs_0 (i : S4096x16.Idx) (q : dot_S4096x16_S16x16_S4096x16_1_0_0_1_n_n.contr.Idx) :
    (dot_S4096x16_S16x16_S4096x16_1_0_0_1_n_n.rhsIdx i q 0).val = (q ⟨0, by decide⟩).val :=
  dot_S4096x16_S16x16_S4096x16_1_0_0_1_n_n.rhsIdx_val_of_single rfl i q
theorem rhs_1 (i : S4096x16.Idx) (q : dot_S4096x16_S16x16_S4096x16_1_0_0_1_n_n.contr.Idx) :
    (dot_S4096x16_S16x16_S4096x16_1_0_0_1_n_n.rhsIdx i q 1).val = (i 1).val := by
  unfold DotDims.rhsIdx
  rw [dif_neg (show ¬(1 : Fin S16x16.rank) ∈ dot_S4096x16_S16x16_S4096x16_1_0_0_1_n_n.rhsBatch by decide), dif_pos (show (1 : Fin S16x16.rank) ∈ dot_S4096x16_S16x16_S4096x16_1_0_0_1_n_n.rhsNonContracting by decide)]
  rfl

/-- The [4096, 16] by [16, 16] product into a zero accumulator, at (r, l): the sum over j of
    A (r, j) * B (j, l). -/
theorem mm_apply (A : FVec Ideal S4096x16 .bf16) (B : FVec Ideal S16x16 .bf16) (r : Fin 4096) (l : Fin 16) :
    matmul dot_S4096x16_S16x16_S4096x16_1_0_0_1_n_n none A B (constant S4096x16 .f32 0x00000000#32) (ix2 r l)
      = ∑ j : Fin 16, A (ix2 r j) * B (ix2 j l) := by
  simp only [matmul]
  rw [Ideal.matmul_constant_zero_apply, ← Equiv.sum_comp (contrEquiv1 dot_S4096x16_S16x16_S4096x16_1_0_0_1_n_n 16 rfl rfl).symm]
  refine Finset.sum_congr rfl fun k _ => ?_
  have hk := contrEquiv1_symm_val dot_S4096x16_S16x16_S4096x16_1_0_0_1_n_n 16 rfl rfl k
  have el : dot_S4096x16_S16x16_S4096x16_1_0_0_1_n_n.lhsIdx (ix2 r l) ((contrEquiv1 dot_S4096x16_S16x16_S4096x16_1_0_0_1_n_n 16 rfl rfl).symm k) = ix2 r k := funext fun a => Fin.ext (by
    match a with
    | ⟨0, _⟩ => exact lhs_0 _ _
    | ⟨1, _⟩ => exact (lhs_1 _ _).trans hk)
  have er : dot_S4096x16_S16x16_S4096x16_1_0_0_1_n_n.rhsIdx (ix2 r l) ((contrEquiv1 dot_S4096x16_S16x16_S4096x16_1_0_0_1_n_n 16 rfl rfl).symm k) = ix2 k l := funext fun a => Fin.ext (by
    match a with
    | ⟨0, _⟩ => exact (rhs_0 _ _).trans hk
    | ⟨1, _⟩ => exact rhs_1 _ _)
  rw [el, er]

/-! ## One order's step, read at an index -/

/-- One order's step: onto an accumulator `acc` the body adds, at (n, c, l), the k-th middle slice
    of x at (n, c) times the product of the flattened, axis-exchanged y with the k-th slab of T,
    that is x (n, k, c) times the sum over j of y (n, j, c) * T (k, j, l). -/
theorem level_apply (k : Nat) (x y : FVec Ideal S64x16x64 .f32) (T : FVec Ideal S16x16x16 .bf16)
    (acc : FVec Ideal S64x64x16 .f32)
    (hs : S64x16x64.Slices ![0, k, 0] S64x1x64) (hs' : S16x16x16.Slices ![k, 0, 0] S1x16x16)
    (h1 : S64x1x64.ShapeCasts S64x64) (h2 : S64x64.ShapeCasts S64x64x1) (h3 : S64x64x1.Broadcasts S64x64x16)
    (h4 : S64x16x64.Transposes [0, 2, 1] S64x64x16) (h5 : FTy.bf16.bits < FTy.f32.bits)
    (h6 : S64x64x16.ShapeCasts S4096x16) (h7 : S1x16x16.ShapeCasts S16x16) (h8 : S4096x16.ShapeCasts S64x64x16)
    (n c : Fin 64) (l : Fin 16) :
    addf acc (mulf
      (broadcastTo S64x64x16 (shapeCast S64x64x1 (shapeCast S64x64 (extractStridedSlice S64x1x64 ![0, k, 0] x hs)
        h1) h2) h3)
      (shapeCast S64x64x16 (matmul dot_S4096x16_S16x16_S4096x16_1_0_0_1_n_n none
        (shapeCast S4096x16 (truncf .bf16 (transpose S64x64x16 [0, 2, 1] y h4) h5) h6)
        (shapeCast S16x16 (extractStridedSlice S1x16x16 ![k, 0, 0] T hs') h7)
        (constant S4096x16 .f32 0x00000000#32)) h8)) (ix3 n c l)
      = acc (ix3 n c l) + x (ix3 n ⟨k, slice_mid_lt hs⟩ c)
          * ∑ j : Fin 16, y (ix3 n j c) * T (ix3 ⟨k, slab_lt hs'⟩ j l) := by
  rw [addf_apply, mulf_apply, bcast_col_apply, cast_col3_apply, cast_mid_apply, slice_mid_apply, cast_unflat_apply,
    mm_apply]
  refine congrArg (fun s => acc (ix3 n c l) + x (ix3 n ⟨k, slice_mid_lt hs⟩ c) * s) (Finset.sum_congr rfl fun j _ => ?_)
  rw [cast_flat_apply, truncf_apply, swap_to_cl_apply, slab_apply]

/-! ## The block a grid point writes back -/

/-- The block's entry (n, l, c) as a function of the three loaded blocks. -/
def blockAt (x y : S64x16x64.Idx → EReal) (T : S16x16x16.Idx → EReal) (n : Fin 64) (l : Fin 16) (c : Fin 64) : EReal :=
  ∑ k : Fin 16, x (ix3 n k c) * ∑ j : Fin 16, y (ix3 n j c) * T (ix3 k j l)

/-- A sum over sixteen orders, taken from zero in the order 0, 1, …, 15. -/
theorem sum16_left (f : Fin 16 → EReal) :
    (∑ k : Fin 16, f k) = 0 + f ⟨0, by decide⟩ + f ⟨1, by decide⟩ + f ⟨2, by decide⟩ + f ⟨3, by decide⟩ + f ⟨4, by decide⟩
      + f ⟨5, by decide⟩ + f ⟨6, by decide⟩ + f ⟨7, by decide⟩ + f ⟨8, by decide⟩ + f ⟨9, by decide⟩ + f ⟨10, by decide⟩
      + f ⟨11, by decide⟩ + f ⟨12, by decide⟩ + f ⟨13, by decide⟩ + f ⟨14, by decide⟩ + f ⟨15, by decide⟩ := by
  simp only [Fin.sum_univ_castSucc, Fin.sum_univ_zero]
  rfl

open Idealize.ShloMosaic.Tactic in
theorem out_apply (cd : Dev nD) (i : grid0.Coords) (arg1 : Memref sig .tc .vmem S64x16x64 .f32) (harg1 : arg1.IsWhole) (arg2 : Memref sig .tc .vmem S64x16x64 .f32) (harg2 : arg2.IsWhole) (arg3 : Memref sig .tc .vmem S16x16x16 .bf16) (harg3 : arg3.IsWhole) (arg4 : Memref sig .tc .vmem S64x16x64 .f32) (harg4 : arg4.IsWhole) (arg5 : Memref sig .tc .vmem S64x64x16 .f32) (harg5 : arg5.IsWhole) (arg6 : Memref sig .tc .vmem S64x64x16 .f32) (harg6 : arg6.IsWhole)
    (x0 x1 : Vec Ideal S64x16x64 .f32) (x2 : Vec Ideal S16x16x16 .bf16) (n : Fin 64) (l : Fin 16) (c : Fin 64) :
    out0_A_3 (F := Ideal) cd i arg1 harg1 arg2 harg2 arg3 harg3 arg4 harg4 arg5 harg5 arg6 harg6 x0 x1 x2 (ix3 n l c)
      = blockAt x0 x1 x2 n l c := by
  unfold out0_A_3
  rw [View.read_writes_eq_canon _ _ _ (cover0_A_3 cd i arg1 harg1 arg2 harg2 arg3 harg3 arg4 harg4 arg5 harg5 arg6 harg6 x0 x1 x2)]
  unfold kernelRun0_A
  dsimp only
  sl_unfold_words
  rw [View.canon_unit_zero hz3]
  simp only [readCov_cons_whole (S := S64x64x16) _ hz3, View.readCov_unit_zero (S := S64x64x16) _ hz3, View.readAt_eq_ld, harg1.read_unread, harg2.read_unread,
    harg3.read_unread, View.ld_unit_zero (S := S64x16x64) hz3, View.ld_unit_zero (S := S16x16x16) hz3]
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47]
  simp only [shapeCast_self, Scalar.ofBits, Ideal.ofBits_def, Ideal.ofBits_zero_f32]
  rw [swap_to_lc_apply]
  rw [level_apply 15, level_apply 14, level_apply 13, level_apply 12, level_apply 11, level_apply 10, level_apply 9,
    level_apply 8, level_apply 7, level_apply 6, level_apply 5, level_apply 4, level_apply 3, level_apply 2, level_apply 1,
    level_apply 0, broadcast_apply]
  exact (sum16_left (fun k => x0 (ix3 n k c) * ∑ j : Fin 16, x1 (ix3 n j c) * x2 (ix3 k j l))).symm

end Cert.TP.Body

end
-- ==== Proof.LibScatterVec.lean ====
/-
  The host's accumulating scatter of SCALARS into a vector, read at an index at the ideal instance.

  An operand of N entries, E update entries, and an [E, 1] array of positions: update e is added
  onto operand entry (position of e). At the ideal instance the result at n is the operand's entry
  plus the exact sum of the update entries e over the e whose position is n. Stated for any
  dimension-numbers record whose fields are this scatter's (no window axes, the operand's one axis
  inserted and named by the one-component index vector), for positions known to be in range
  (given as a function into Fin N).
-/
import Idealize.ShloMosaic.PureOps
import Idealize.ShloMosaic.PureOps.Ideal
import Idealize.ShloMosaic.Lib.ValueIdx

open scoped BigOperators
open Idealize.ShloMosaic Idealize.ShloMosaic.ValueIdx

namespace Cert.Gnn.Lib

/-- The window start and window coordinate on the operand's one axis: the start is the position
    read at (u 0, 0), the window coordinate is 0. -/
theorem start_window_vec {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hivd : d.indexVectorDim = 1)
    (idx : IVec ⟨2, ![E, 1]⟩ w) (u : (⟨1, ![E]⟩ : Shape).Idx) :
    d.start u idx 0 = (idx (ix2 (u 0) 0)).toInt ∧ d.window u 0 = 0 := by
  obtain ⟨uw, iw, sd, ivd, wf⟩ := d
  dsimp only at huw hiw hsd hivd
  subst huw hiw hsd hivd
  refine ⟨?_, ?_⟩
  · unfold ScatterDims.start
    rw [dif_pos (show (0 : Fin 1) ∈ ([0] : List (Fin 1)) by decide)]
    congr 2
    funext b
    match b with
    | ⟨0, _⟩ => rfl
    | ⟨1, _⟩ => rfl
  · unfold ScatterDims.window
    split
    · rename_i ha
      exact absurd ha (show (0 : Fin 1) ∉ (List.finRange 1).filter (fun a => a ∉ ([0] : List (Fin 1))) by decide)
    · rfl

/-- Under this scatter's dimension numbers and in-range positions, update index u lands at the
    position of u: never dropped. -/
theorem resultIdx?_vec {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨1, ![E]⟩ : Shape).Idx) :
    d.resultIdx? u idx = some (ix1 (dst (u 0))) := by
  obtain ⟨h0, hw0⟩ := start_window_vec d huw hiw hsd hivd idx u
  have hd : d.start u idx 0 = ((dst (u 0)).val : ℤ) := h0.trans (hdst (u 0))
  have hlt0 : (dst (u 0)).val < N := (dst (u 0)).isLt
  have hcond : ∀ a, 0 ≤ d.start u idx a + d.window u a ∧
      d.start u idx a + d.window u a < (⟨1, ![N]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega

/-- THE SCALAR SCATTER AT AN INDEX. An accumulating scatter of E update entries into an operand of
    N entries, entry e going to the position the [E, 1] index array holds at (e, 0) — positions in
    range, `dst e` —, is at the ideal instance, at n, the operand's entry plus the exact sum of
    `upd e` over the entries e sent to n. -/
theorem scatterAdd_vec {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![E, 1]⟩ w)
    (upd : (⟨1, ![E]⟩ : Shape).Idx → EReal)
    (dst : Fin E → Fin N) (hdst : ∀ e, (idx (ix2 e 0)).toInt = ((dst e).val : ℤ))
    (n : Fin N) :
    Ideal.hostScatterAdd d x idx upd (ix1 n) =
      x (ix1 n) + ∑ e ∈ Finset.univ.filter (fun e => dst e = n), upd (ix1 e) := by
  unfold Ideal.hostScatterAdd
  congr 1
  symm
  refine Finset.sum_bij (fun e _ => ix1 e) ?_ ?_ ?_ ?_
  · intro e he
    rw [Finset.mem_filter] at he ⊢
    refine ⟨Finset.mem_univ _, ?_⟩
    rw [resultIdx?_vec d huw hiw hsd hivd idx dst hdst]
    show some (ix1 (dst e)) = some (ix1 n)
    rw [he.2]
  · intro a _ b _ h
    exact congrFun h 0
  · intro u hu
    rw [Finset.mem_filter, resultIdx?_vec d huw hiw hsd hivd idx dst hdst] at hu
    have hu' := Option.some.inj hu.2
    have e0 : dst (u 0) = n := congrFun hu' 0
    exact ⟨u 0, Finset.mem_filter.2 ⟨Finset.mem_univ _, e0⟩, (eq_ix1 u).symm⟩
  · intro e _
    rfl

end Cert.Gnn.Lib
-- ==== Proof.KernelTable.lean ====
/-
  The dense coefficient table the kernel's program builds before the region.

  The program forms, for every entry e, the flat position 256 * M1 e + 16 * M2 e + Ms e in 32-bit
  arithmetic, adds 4096 to it where it is negative, adds CG e onto that position of a zero vector
  of length 4096, and reads the vector as a [16, 16, 16] array (the change of float format being the
  identity on the extended reals). With in-range words the position is below 4096 and is not
  negative, so the array's entry (m1, m2, l) is zero plus the sum of the coefficients of the entries
  landing on 256 m1 + 16 m2 + l.
-/
import proofs.«423181_j5231270166734_2_alg».proof.Proof.Gen.KernelIdeal.Frame
import proofs.«423181_j5231270166734_2_alg».proof.Proof.Spec
import proofs.«423181_j5231270166734_2_alg».proof.Proof.LibScatterVec
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

noncomputable section

open scoped BigOperators
open Idealize.ShloMosaic Idealize.ShloMosaic.ValueIdx Idealize.ShloMosaic.TcCoe Idealize.SL.Sem

namespace Cert.TP.Table

open Cert.KernelIdeal Cert.KernelIdeal.Gen

variable (m : (ℓ : Loc nD τ sig) → Buf (Elt Ideal) ℓ)

/-! ### The position word of one entry, in 32-bit arithmetic -/

/-- A word whose signed value lies in [0, 16) has that value unsigned too. -/
theorem toNat_lt_of_inRange (x : BitVec 32) (h0 : 0 ≤ x.toInt) (h1 : x.toInt < 16) : x.toNat < 16 := by
  rw [BitVec.toInt_eq_toNat_cond] at h0 h1
  split at h0 <;> omega

/-- The order an in-range word names is the word's unsigned value. -/
theorem ord_val_toNat (x : BitVec 32) (h : x.toNat < 16) : (Cert.TP.ord x).val = x.toNat :=
  Nat.mod_eq_of_lt h

/-- The position word 256 x + 16 y + z of three words below 16 does not wrap: its unsigned value is
    that sum of naturals. -/
theorem posWord_toNat (x y z : BitVec 32) (hx : x.toNat < 16) (hy : y.toNat < 16) (hz : z.toNat < 16) :
    (x * 256#32 + y * 16#32 + z).toNat = 256 * x.toNat + 16 * y.toNat + z.toNat := by
  rw [BitVec.toNat_add, BitVec.toNat_add, BitVec.toNat_mul, BitVec.toNat_mul]
  show ((x.toNat * 256 % 2 ^ 32 + y.toNat * 16 % 2 ^ 32) % 2 ^ 32 + z.toNat) % 2 ^ 32 = _
  omega

/-- The word the program scatters entry by entry: the position word, with 4096 added where it is
    negative. For three words below 16 it is the position word itself, and its signed value is
    256 x + 16 y + z. -/
theorem wrapWord_toInt (x y z : BitVec 32) (hx : x.toNat < 16) (hy : y.toNat < 16) (hz : z.toNat < 16) :
    (Scalar.select (IntOp.cmpi .slt (x * 256#32 + y * 16#32 + z) 0#32)
        (x * 256#32 + y * 16#32 + z + 4096#32) (x * 256#32 + y * 16#32 + z)).toInt
      = ((256 * x.toNat + 16 * y.toNat + z.toNat : ℕ) : ℤ) := by
  have hw := posWord_toNat x y z hx hy hz
  have hi : (x * 256#32 + y * 16#32 + z).toInt = ((256 * x.toNat + 16 * y.toNat + z.toNat : ℕ) : ℤ) := by
    rw [BitVec.toInt_eq_toNat_cond, if_pos (by rw [hw]; omega), hw]
  have hc : IntOp.cmpi .slt (x * 256#32 + y * 16#32 + z) 0#32 = 0#1 := by
    show BitVec.ofBool ((x * 256#32 + y * 16#32 + z).slt 0#32) = 0#1
    have : (x * 256#32 + y * 16#32 + z).slt 0#32 = false := by
      rw [BitVec.slt, hi]
      simp
      omega
    rw [this]; rfl
  rw [hc, select_zero, hi]

/-! ### The program's operations, composed -/

/-- The position word of every entry: 256 * M1 + 16 * M2 + Ms, in 32-bit arithmetic. -/
def posVec (M1 M2 Ms : IVec S478 32) : IVec S478 32 :=
  addi (addi (muli M1 (broadcastInDim S478 ![] bcast_S_S478 (constantI S_ 32 256#32)))
    (muli M2 (broadcastInDim S478 ![] bcast_S_S478 (constantI S_ 32 16#32)))) Ms

/-- The same with 4096 added where it is negative. -/
def wrapVec (M1 M2 Ms : IVec S478 32) : IVec S478 32 :=
  select (cmpi .slt (posVec M1 M2 Ms) (broadcastInDim S478 ![] bcast_S_S478 (constantI S_ 32 0#32)))
    (addi (posVec M1 M2 Ms) (broadcastInDim S478 ![] bcast_S_S478 (constantI S_ 32 4096#32)))
    (posVec M1 M2 Ms)

/-- The [478, 1] column of scatter positions. -/
def colVec (M1 M2 Ms : IVec S478 32) : IVec S478x1 32 :=
  broadcastInDim S478x1 ![0] bcast_S478_S478x1_0 (wrapVec M1 M2 Ms)

/-- The vector of length 4096 the scatter leaves. -/
def scatVec (CG : S478.Idx → EReal) (M1 M2 Ms : IVec S478 32) : S4096.Idx → EReal :=
  Host.scatterAdd (F := Ideal) scatter_S4096_S478x1_S478_n_0_0_1
    (broadcastInDim S4096 ![] bcast_S_S4096 (constant (F := Ideal) S_ .f32 0x00000000#32))
    (colVec M1 M2 Ms) CG

/-- The third window's array, as the host operations leave it, at an index: the scattered vector
    read as a [16, 16, 16] array (narrowing the float format is the identity on the extended
    reals). -/
theorem V_main_v15 (c : Dev nD) (i : S16x16x16.Idx) :
    (V m c main_v15 : S16x16x16.Idx → EReal) i
      = shapeCast S16x16x16
          (scatVec (m ((c : Thread nD τ).loc main_arg2)) (m ((c : Thread nD τ).loc main_arg3))
            (m ((c : Thread nD τ).loc main_arg4)) (m ((c : Thread nD τ).loc main_arg5)))
          shapeCasts_S4096_S16x16x16 i := by
  dsimp only [Gen.V, Gen.hostOps0]
  after_results_simp
  rfl

/-- The column of positions at (e, 0): the wrapped position word of entry e. -/
theorem colVec_apply (M1 M2 Ms : IVec S478 32) (e : Fin 478) :
    colVec M1 M2 Ms (ix2 e (0 : Fin 1))
      = Scalar.select (IntOp.cmpi .slt (M1 (ix1 e) * 256#32 + M2 (ix1 e) * 16#32 + Ms (ix1 e)) 0#32)
          (M1 (ix1 e) * 256#32 + M2 (ix1 e) * 16#32 + Ms (ix1 e) + 4096#32)
          (M1 (ix1 e) * 256#32 + M2 (ix1 e) * 16#32 + Ms (ix1 e)) := by
  unfold colVec
  rw [broadcastInDim_apply _ _ _ (ix2 e (0 : Fin 1)) (ix1 e) (fun a => match a with | ⟨0, _⟩ => rfl)]
  rfl

/-- With in-range words, the position the program sends entry e to is the entry's position in the
    dense table. -/
theorem colVec_toInt (M1 M2 Ms : IVec S478 32) (h1 : Cert.TP.InRange M1) (h2 : Cert.TP.InRange M2)
    (hs : Cert.TP.InRange Ms) (e : Fin 478) :
    (colVec M1 M2 Ms (ix2 e (0 : Fin 1))).toInt = ((Cert.TP.pos M1 M2 Ms e).val : ℤ) := by
  have hx := toNat_lt_of_inRange _ (h1 e).1 (h1 e).2
  have hy := toNat_lt_of_inRange _ (h2 e).1 (h2 e).2
  have hz := toNat_lt_of_inRange _ (hs e).1 (hs e).2
  rw [colVec_apply, wrapWord_toInt _ _ _ hx hy hz]
  show ((256 * (M1 (ix1 e)).toNat + 16 * (M2 (ix1 e)).toNat + (Ms (ix1 e)).toNat : ℕ) : ℤ)
    = ((256 * (Cert.TP.ord (M1 (ix1 e))).val + 16 * (Cert.TP.ord (M2 (ix1 e))).val
        + (Cert.TP.ord (Ms (ix1 e))).val : ℕ) : ℤ)
  rw [ord_val_toNat _ hx, ord_val_toNat _ hy, ord_val_toNat _ hz]

/-- The scattered vector at a position: zero plus the sum of the coefficients of the entries sent
    there. -/
theorem scatVec_apply (CG : S478.Idx → EReal) (M1 M2 Ms : IVec S478 32) (h1 : Cert.TP.InRange M1)
    (h2 : Cert.TP.InRange M2) (hs : Cert.TP.InRange Ms) (n : Fin 4096) :
    scatVec CG M1 M2 Ms (ix1 n)
      = 0 + ∑ e ∈ Finset.univ.filter (fun e : Fin 478 => Cert.TP.pos M1 M2 Ms e = n), CG (ix1 e) := by
  unfold scatVec Host.scatterAdd
  rw [Ideal.hostScatterAdd_def,
    Cert.Gnn.Lib.scatterAdd_vec scatter_S4096_S478x1_S478_n_0_0_1 rfl rfl rfl rfl _ (colVec M1 M2 Ms) CG
      (Cert.TP.pos M1 M2 Ms) (colVec_toInt M1 M2 Ms h1 h2 hs) n]
  congr 1
  show Ideal.ofBits .f32 0x00000000#32 = 0
  exact Ideal.ofBits_zero_f32

/-- With in-range index words, the table the region finds in the third window's array is the dense
    coefficient table of the arguments. -/
theorem table_apply (c : Dev nD)
    (h3 : Cert.TP.InRange (m ((c : Thread nD τ).loc main_arg3)))
    (h4 : Cert.TP.InRange (m ((c : Thread nD τ).loc main_arg4)))
    (h5 : Cert.TP.InRange (m ((c : Thread nD τ).loc main_arg5)))
    (m1 m2 l : Fin 16) :
    (V m c main_v15 : S16x16x16.Idx → EReal) (ix3 m1 m2 l)
      = Cert.TP.cgTable (m ((c : Thread nD τ).loc main_arg2)) (m ((c : Thread nD τ).loc main_arg3))
          (m ((c : Thread nD τ).loc main_arg4)) (m ((c : Thread nD τ).loc main_arg5)) m1 m2 l := by
  rw [V_main_v15,
    shapeCast_apply _ _ (ix3 m1 m2 l) (ix1 (Cert.TP.flat m1 m2 l)) (by
      rw [Shape.rowMajor_val_one, Shape.rowMajor_val_three]
      show 256 * m1.val + 16 * m2.val + l.val = (m1.val * 16 + m2.val) * 16 + l.val
      omega),
    scatVec_apply _ _ _ _ h3 h4 h5]
  rfl

end Cert.TP.Table

end
-- ==== Proof.KernelValue.lean ====
/-
  The array the kernel's program ends with.

  The grid has 128 points; point t stages rows 64 t … 64 t + 63 of the two float arguments, the whole
  coefficient table, and writes back rows 64 t … 64 t + 63 of the result. So the block point t writes
  back is, at (p, l, c), the point's block function of rows 64 t + p of the arguments and of the
  table, which — the table being the dense coefficient table of the arguments, and the arguments
  real-valued — is the segment sum at (64 t + p, l, c). The 128 blocks cover the result array.
-/
import proofs.«423181_j5231270166734_2_alg».proof.Proof.Gen.KernelIdeal.Value
import proofs.«423181_j5231270166734_2_alg».proof.Proof.Spec
import proofs.«423181_j5231270166734_2_alg».proof.Proof.Algebra
import proofs.«423181_j5231270166734_2_alg».proof.Proof.KernelBody
import proofs.«423181_j5231270166734_2_alg».proof.Proof.KernelTable
import Idealize.ShloMosaic.Lib.Pipeline.Value

set_option maxRecDepth 16384

noncomputable section

open scoped BigOperators
open Idealize.ShloMosaic Idealize.ShloMosaic.ValueIdx Idealize.ShloMosaic.TcCoe Idealize.SL.Sem

namespace Cert.TP.Kern

open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- What the precondition says of the arguments on core c. -/
structure Good (c : Dev nD) : Prop where
  f0 : Cert.TP.Fin3 (m ((c : Thread nD τ).loc main_arg0))
  f1 : Cert.TP.Fin3 (m ((c : Thread nD τ).loc main_arg1))
  f2 : Cert.TP.Fin1 (m ((c : Thread nD τ).loc main_arg2))
  r3 : Cert.TP.InRange (m ((c : Thread nD τ).loc main_arg3))
  r4 : Cert.TP.InRange (m ((c : Thread nD τ).loc main_arg4))
  r5 : Cert.TP.InRange (m ((c : Thread nD τ).loc main_arg5))

/-- The segment sum of core c's arguments. -/
abbrev result (c : Dev nD) : S8192x16x64.Idx → EReal :=
  Cert.TP.tp (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- The printed index maps over the grid: the two float arguments' and the result's blocks are at
    block row t, the table's block is the whole table. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem N_eq : cfg0.N = 128 := N_0

/-- Row 64 t + p of the arrays. -/
def rowOf (t : Fin cfg0.N) (p : Fin 64) : Fin 8192 :=
  ⟨64 * t.val + p.val, by have h : t.val < 128 := lt_of_lt_of_eq t.isLt N_eq; have := p.isLt; omega⟩

/-- The result window's block at point t sits at rows 64 t …. -/
theorem emb3 (t : Fin cfg0.N) (p : Fin 64) (q : Fin 16) (r : Fin 64) :
    ((cfg0.win 3).blk t).view.emb (ix3 p q r) = ix3 (rowOf t p) q r := by
  obtain ⟨-, -, -, -, -, -, -, -, -, e0, e1, e2⟩ := idx_facts t
  funext a; apply Fin.ext
  match a with
  | ⟨0, _⟩ => show win0_3.index t (0 : Fin 3) * 64 + 1 * p.val = 64 * t.val + p.val; omega
  | ⟨1, _⟩ => show win0_3.index t (1 : Fin 3) * 16 + 1 * q.val = q.val; omega
  | ⟨2, _⟩ => show win0_3.index t (2 : Fin 3) * 64 + 1 * r.val = r.val; omega

/-- The first window's block at point t holds rows 64 t … of the first argument. -/
theorem blk0_apply (c : Dev nD) (t : Fin cfg0.N) (p : Fin 64) (k : Fin 16) (r : Fin 64) :
    (iblk m c 0 t : S64x16x64.Idx → EReal) (ix3 p k r) = m ((c : Thread nD τ).loc main_arg0) (ix3 (rowOf t p) k r) := by
  obtain ⟨e0, e1, e2, -⟩ := idx_facts t
  show V m c main_arg0 (((cfg0.win 0).blk t).view.emb (ix3 p k r)) = _
  rw [V_main_arg0]
  refine congrArg (m ((c : Thread nD τ).loc main_arg0)) ?_
  funext a; apply Fin.ext
  match a with
  | ⟨0, _⟩ => show win0_0.index t (0 : Fin 3) * 64 + 1 * p.val = 64 * t.val + p.val; omega
  | ⟨1, _⟩ => show win0_0.index t (1 : Fin 3) * 16 + 1 * k.val = k.val; omega
  | ⟨2, _⟩ => show win0_0.index t (2 : Fin 3) * 64 + 1 * r.val = r.val; omega

/-- The second window's block at point t holds rows 64 t … of the second argument. -/
theorem blk1_apply (c : Dev nD) (t : Fin cfg0.N) (p : Fin 64) (k : Fin 16) (r : Fin 64) :
    (iblk m c 1 t : S64x16x64.Idx → EReal) (ix3 p k r) = m ((c : Thread nD τ).loc main_arg1) (ix3 (rowOf t p) k r) := by
  obtain ⟨-, -, -, e0, e1, e2, -⟩ := idx_facts t
  show V m c main_arg1 (((cfg0.win 1).blk t).view.emb (ix3 p k r)) = _
  rw [V_main_arg1]
  refine congrArg (m ((c : Thread nD τ).loc main_arg1)) ?_
  funext a; apply Fin.ext
  match a with
  | ⟨0, _⟩ => show win0_1.index t (0 : Fin 3) * 64 + 1 * p.val = 64 * t.val + p.val; omega
  | ⟨1, _⟩ => show win0_1.index t (1 : Fin 3) * 16 + 1 * k.val = k.val; omega
  | ⟨2, _⟩ => show win0_1.index t (2 : Fin 3) * 64 + 1 * r.val = r.val; omega

/-- The third window's block at every point is the whole table. -/
theorem blk2_apply (c : Dev nD) (t : Fin cfg0.N) (a b l : Fin 16) :
    (iblk m c 2 t : S16x16x16.Idx → EReal) (ix3 a b l) = (V m c main_v15 : S16x16x16.Idx → EReal) (ix3 a b l) := by
  obtain ⟨-, -, -, -, -, -, e0, e1, e2, -⟩ := idx_facts t
  show V m c main_v15 (((cfg0.win 2).blk t).view.emb (ix3 a b l)) = _
  refine congrArg (V m c main_v15) ?_
  funext d; apply Fin.ext
  match d with
  | ⟨0, _⟩ => show win0_2.index t (0 : Fin 3) * 16 + 1 * a.val = a.val; omega
  | ⟨1, _⟩ => show win0_2.index t (1 : Fin 3) * 16 + 1 * b.val = b.val; omega
  | ⟨2, _⟩ => show win0_2.index t (2 : Fin 3) * 16 + 1 * l.val = l.val; omega

/-- WHAT POINT t WRITES BACK is block t of the segment sum. -/
theorem flushed_eq (c : Dev nD) (hg : Good m c) (t : Fin cfg0.N) :
    (dats m 0 c).flushed 3 t = ((cfg0.win 3).blk t).view.read (Elt Ideal) (result m c) := by
  rw [flushed3_A]
  funext j
  obtain ⟨p, q, r, rfl⟩ : ∃ (p : Fin 64) (q : Fin 16) (r : Fin 64), j = ix3 p q r := ⟨j 0, j 1, j 2, eq_ix3 j⟩
  show out0_A_3 (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (iblk m c 0 t) (iblk m c 1 t) (iblk m c 2 t) (ix3 p q r)
    = result m c (((cfg0.win 3).blk t).view.emb (ix3 p q r))
  refine (Cert.TP.Body.out_apply c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (iblk m c 0 t) (iblk m c 1 t) (iblk m c 2 t) p q r).trans ?_
  rw [emb3]
  show _ = Cert.TP.tpAt (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5)) (rowOf t p) q r
  rw [← Cert.TP.kernAt_eq_tpAt _ _ _ _ _ _ hg.f0 hg.f1 hg.f2]
  unfold Cert.TP.Body.blockAt Cert.TP.kernAt
  refine Finset.sum_congr rfl fun k _ => ?_
  rw [blk0_apply]
  refine congrArg (HMul.hMul _) (Finset.sum_congr rfl fun j _ => ?_)
  rw [blk1_apply, blk2_apply, Cert.TP.Table.table_apply m c hg.r3 hg.r4 hg.r5]

/-- An index of the result array is in point t's block iff each coordinate is in the block's range. -/
theorem mem_blk (t : Fin cfg0.N) (i : S8192x16x64.Idx) :
    i ∈ ((cfg0.win 3).blk t).view.set ↔ ∀ a : Fin 3, win0_3.index t a * S64x16x64.size a ≤ (i a).val ∧ (i a).val < win0_3.index t a * S64x16x64.size a + S64x16x64.size a := by
  show i ∈ ((View.whole main_v16).slice (win0_3.rect t)).set ↔ _
  rw [View.set_slice_whole, Rect.mem_set_unit]
  exact Iff.rfl

/-- Every index of the result array is in the block of the point its row belongs to. -/
theorem cover (i : S8192x16x64.Idx) :
    ∃ t : Fin cfg0.N, (cfg0.win 3).flush t = true ∧ i ∈ ((cfg0.win 3).blk t).view.set := by
  have hi0 : (i 0).val < 8192 := (i 0).isLt
  have hi1 : (i 1).val < 16 := (i 1).isLt
  have hi2 : (i 2).val < 64 := (i 2).isLt
  let t : Fin cfg0.N := ⟨(i 0).val / 64, lt_of_lt_of_eq (by omega : (i 0).val / 64 < 128) N_eq.symm⟩
  obtain ⟨-, -, -, -, -, -, -, -, -, e0, e1, e2⟩ := idx_facts t
  have ht : t.val = (i 0).val / 64 := rfl
  refine ⟨t, flush0_3 t, ?_⟩
  rw [mem_blk]
  intro a
  match a with
  | ⟨0, _⟩ => show win0_3.index t (0 : Fin 3) * 64 ≤ (i 0).val ∧ (i 0).val < win0_3.index t (0 : Fin 3) * 64 + 64; omega
  | ⟨1, _⟩ => show win0_3.index t (1 : Fin 3) * 16 ≤ (i 1).val ∧ (i 1).val < win0_3.index t (1 : Fin 3) * 16 + 16; omega
  | ⟨2, _⟩ => show win0_3.index t (2 : Fin 3) * 64 ≤ (i 2).val ∧ (i 2).val < win0_3.index t (2 : Fin 3) * 64 + 64; omega

/-- THE RESULT ARRAY after the run is the segment sum of the arguments. -/
theorem final (c : Dev nD) (hg : Good m c) : (dats m 0 c).arrAt 3 cfg0.N = result m c :=
  (dats m 0 c).arrAt_eq_of_cover 3 (result m c) (fun t _ => flushed_eq m c hg t) cover

/-- The run with the result named: every weakly fair execution ends with the result buffer at the
    segment sum of the arguments and the arguments unchanged. -/
theorem run (hg : ∀ c, Good m c) : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hg c)), (h c).2⟩) (run_blocks m ρ)

end Cert.TP.Kern

end
-- ==== Proof.lean ====
/-
  The certificate of the coupled tensor product.

  Both programs compute, from two [8192, 16, 64] arrays X1, X2, a coefficient vector CG of length 478
  and three index vectors M1, M2, Ms whose words lie in [0, 16), the array whose entry (n, l, c) is
  the sum, over the entries e with Ms e = l, of X1 (n, M1 e, c) * X2 (n, M2 e, c) * CG e.
  The reference does so directly (two row gathers, two products, a segment sum). The kernel's program
  first scatters CG into a dense [16, 16, 16] table at position (M1 e, M2 e, Ms e) and then, block of
  64 rows by block, contracts X2 with the table over the second order and X1 with the result over
  the first order; regrouping that double sum by entries needs the distributive law, which holds on
  the extended reals because the precondition makes every float entry a real number, and needs the
  index words in range, which the precondition also says.
  The three frames come from the generated frame runs; the idealization rewrote nothing.
-/
import proofs.«423181_j5231270166734_2_alg».proof.Defs
import proofs.«423181_j5231270166734_2_alg».proof.Proof.Gen.Kernel
import proofs.«423181_j5231270166734_2_alg».proof.Proof.Gen.Kernel.Frame
import proofs.«423181_j5231270166734_2_alg».proof.Proof.Gen.KernelIdeal
import proofs.«423181_j5231270166734_2_alg».proof.Proof.Gen.KernelIdeal.Frame
import proofs.«423181_j5231270166734_2_alg».proof.Proof.Gen.KernelIdeal.Value
import proofs.«423181_j5231270166734_2_alg».proof.Proof.Gen.ReferenceIdeal
import proofs.«423181_j5231270166734_2_alg».proof.Proof.Gen.ReferenceIdeal.Run
import proofs.«423181_j5231270166734_2_alg».proof.Proof.Gen.ReferenceIdeal.Read
import proofs.«423181_j5231270166734_2_alg».proof.Proof.Gen.Pre_finite_inputs
import proofs.«423181_j5231270166734_2_alg».proof.Proof.Spec
import proofs.«423181_j5231270166734_2_alg».proof.Proof.PreFacts
import proofs.«423181_j5231270166734_2_alg».proof.Proof.RefValue
import proofs.«423181_j5231270166734_2_alg».proof.Proof.KernelValue
import Idealize.ShloMosaic.Adequacy
import Idealize.ShloMosaic.Init

noncomputable section

namespace Cert.Proof

open Idealize.ShloMosaic Idealize.ShloMosaic.TcCoe Idealize.SL.Sem

/-- Under the precondition the arguments on every core are real-valued and in range. -/
theorem good_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.TP.Kern.Good m c := by
  obtain ⟨a0, a1, a2, a3, a4, a5⟩ := Cert.TP.Pre.facts_of_pre _ _ _ _ _ _ (h c)
  exact ⟨a0, a1, a2, a3, a4, a5⟩

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result buffer at the segment sum of the (agreeing) arguments. -/
theorem algebraic : Cert.algebraic_KernelIdeal_ReferenceIdeal := by
  intro m ρ m' ρ' hpre hagree
  have hg := good_of_pre m hpre
  refine ⟨fun c => Cert.TP.Kern.result m c, Cert.TP.Kern.run m ρ hg, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v22_eq _ _ _ _ _ _).trans
    (Cert.TP.Ref.ref_eq_tp _ _ _ _ _ _ (hg c).r3 (hg c).r4 (hg c).r5)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
